-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S8x128x64 : Shape := ⟨3, ![8, 128, 64]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S8x128x64 : S_.BroadcastsInDim S8x128x64 (![] : Fin 0 → Fin S8x128x64.rank)
  reducesTo_S8x128x64_S_d0_1_2 : S8x128x64.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S800000 32) (main_arg2 : IVec S800000 32) (main_arg3 : IVec S800000 32) (main_arg4 : FVec F S8x128x64 .f32) (main_arg5 : FVec F S64x128 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S8x128x64 .f32 := Host.absf main_arg4
  let main_cst_0 : FVec F S_ .f32 := constant S_ .f32 0x7F800000#32
  let main_v5 : FVec F S8x128x64 .f32 := broadcastInDim S8x128x64 ![] bcast_S_S8x128x64 main_cst_0
  let main_v6 : IVec S8x128x64 1 := cmpf .olt main_v4 main_v5
  let main_c_1 : IVec S_ 1 := constantI S_ 1 1#1
  let main_v7 : IVec S_ 1 := (fun x v => Host.reduce IntOp.andi x v reducesTo_S8x128x64_S_d0_1_2 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S800000 : Shape := ⟨1, ![800000]⟩
abbrev S8x128x64 : Shape := ⟨3, ![8, 128, 64]⟩
abbrev S64x128 : Shape := ⟨2, ![64, 128]⟩
abbrev S64 : Shape := ⟨1, ![64]⟩
abbrev S_ : Shape := ⟨0, ![]⟩
abbrev S802816 : Shape := ⟨1, ![802816]⟩
abbrev S8x128 : Shape := ⟨2, ![8, 128]⟩
abbrev S8x64 : Shape := ⟨2, ![8, 64]⟩
abbrev S64x8 : Shape := ⟨2, ![64, 8]⟩
abbrev S50000x8 : Shape := ⟨2, ![50000, 8]⟩
abbrev S802816x1 : Shape := ⟨2, ![802816, 1]⟩
abbrev S802816x2 : Shape := ⟨2, ![802816, 2]⟩
abbrev S802816x64 : Shape := ⟨2, ![802816, 64]⟩
abbrev S16384x64 : Shape := ⟨2, ![16384, 64]⟩
abbrev S16384 : Shape := ⟨1, ![16384]⟩
abbrev S16384x1 : Shape := ⟨2, ![16384, 1]⟩
abbrev S50000 : Shape := ⟨1, ![50000]⟩
abbrev S50000x1 : Shape := ⟨2, ![50000, 1]⟩
abbrev S64x64 : Shape := ⟨2, ![64, 64]⟩
abbrev S1x64 : Shape := ⟨2, ![1, 64]⟩
abbrev S5000x64 : Shape := ⟨2, ![5000, 64]⟩

abbrev nBuf : Space → Nat
  | .hbm => 102
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S8x128x64, .f32⟩
  | .hbm, ⟨5, _⟩ => ⟨S64x128, .f32⟩
  | .hbm, ⟨6, _⟩ => ⟨S64, .f32⟩
  | .hbm, ⟨7, _⟩ => ⟨S_, .i32⟩
  | .hbm, ⟨8, _⟩ => ⟨S_, .i32⟩
  | .hbm, ⟨9, _⟩ => ⟨S802816, .i32⟩
  | .hbm, ⟨10, _⟩ => ⟨S_, .i32⟩
  | .hbm, ⟨11, _⟩ => ⟨S_, .i32⟩
  | .hbm, ⟨12, _⟩ => ⟨S802816, .i32⟩
  | .hbm, ⟨13, _⟩ => ⟨S_, .i32⟩
  | .hbm, ⟨14, _⟩ => ⟨S_, .i32⟩
  | .hbm, ⟨15, _⟩ => ⟨S802816, .i32⟩
  | .hbm, ⟨16, _⟩ => ⟨S802816, .i32⟩
  | .hbm, ⟨17, _⟩ => ⟨S_, .i32⟩
  | .hbm, ⟨18, _⟩ => ⟨S802816, .i32⟩
  | .hbm, ⟨19, _⟩ => ⟨S802816, .i1⟩
  | .hbm, ⟨20, _⟩ => ⟨S_, .i32⟩
  | .hbm, ⟨21, _⟩ => ⟨S_, .i32⟩
  | .hbm, ⟨22, _⟩ => ⟨S802816, .i32⟩
  | .hbm, ⟨23, _⟩ => ⟨S802816, .i32⟩
  | .hbm, ⟨24, _⟩ => ⟨S_, .f32⟩
  | .hbm, ⟨25, _⟩ => ⟨S8x128, .f32⟩
  | .hbm, ⟨26, _⟩ => ⟨S8x64, .f32⟩
  | .hbm, ⟨27, _⟩ => ⟨S8x64, .f32⟩
  | .hbm, ⟨28, _⟩ => ⟨S64x8, .f32⟩
  | .hbm, ⟨29, _⟩ => ⟨S50000x8, .f32⟩
  | .hbm, ⟨30, _⟩ => ⟨S64x8, .f32⟩
  | .hbm, ⟨31, _⟩ => ⟨S50000x8, .f32⟩
  | .hbm, ⟨32, _⟩ => ⟨S_, .i32⟩
  | .hbm, ⟨33, _⟩ => ⟨S802816, .i32⟩
  | .hbm, ⟨34, _⟩ => ⟨S802816, .i1⟩
  | .hbm, ⟨35, _⟩ => ⟨S_, .i32⟩
  | .hbm, ⟨36, _⟩ => ⟨S802816, .i32⟩
  | .hbm, ⟨37, _⟩ => ⟨S802816, .i32⟩
  | .hbm, ⟨38, _⟩ => ⟨S802816, .i32⟩
  | .hbm, ⟨39, _⟩ => ⟨S_, .i32⟩
  | .hbm, ⟨40, _⟩ => ⟨S802816, .i32⟩
  | .hbm, ⟨41, _⟩ => ⟨S802816, .i1⟩
  | .hbm, ⟨42, _⟩ => ⟨S_, .i32⟩
  | .hbm, ⟨43, _⟩ => ⟨S802816, .i32⟩
  | .hbm, ⟨44, _⟩ => ⟨S802816, .i32⟩
  | .hbm, ⟨45, _⟩ => ⟨S802816, .i32⟩
  | .hbm, ⟨46, _⟩ => ⟨S802816x1, .i32⟩
  | .hbm, ⟨47, _⟩ => ⟨S802816x1, .i32⟩
  | .hbm, ⟨48, _⟩ => ⟨S802816x2, .i32⟩
  | .hbm, ⟨49, _⟩ => ⟨S802816, .f32⟩
  | .hbm, ⟨50, _⟩ => ⟨S_, .i32⟩
  | .hbm, ⟨51, _⟩ => ⟨S802816, .i32⟩
  | .hbm, ⟨52, _⟩ => ⟨S802816, .i1⟩
  | .hbm, ⟨53, _⟩ => ⟨S_, .i32⟩
  | .hbm, ⟨54, _⟩ => ⟨S802816, .i32⟩
  | .hbm, ⟨55, _⟩ => ⟨S802816, .i32⟩
  | .hbm, ⟨56, _⟩ => ⟨S802816, .i32⟩
  | .hbm, ⟨57, _⟩ => ⟨S_, .i32⟩
  | .hbm, ⟨58, _⟩ => ⟨S802816, .i32⟩
  | .hbm, ⟨59, _⟩ => ⟨S802816, .i1⟩
  | .hbm, ⟨60, _⟩ => ⟨S_, .i32⟩
  | .hbm, ⟨61, _⟩ => ⟨S802816, .i32⟩
  | .hbm, ⟨62, _⟩ => ⟨S802816, .i32⟩
  | .hbm, ⟨63, _⟩ => ⟨S802816, .i32⟩
  | .hbm, ⟨64, _⟩ => ⟨S802816x1, .i32⟩
  | .hbm, ⟨65, _⟩ => ⟨S802816x1, .i32⟩
  | .hbm, ⟨66, _⟩ => ⟨S802816x2, .i32⟩
  | .hbm, ⟨67, _⟩ => ⟨S802816, .f32⟩
  | .hbm, ⟨68, _⟩ => ⟨S802816, .f32⟩
  | .hbm, ⟨69, _⟩ => ⟨S_, .i32⟩
  | .hbm, ⟨70, _⟩ => ⟨S802816, .i32⟩
  | .hbm, ⟨71, _⟩ => ⟨S802816, .i1⟩
  | .hbm, ⟨72, _⟩ => ⟨S_, .i32⟩
  | .hbm, ⟨73, _⟩ => ⟨S802816, .i32⟩
  | .hbm, ⟨74, _⟩ => ⟨S802816, .i32⟩
  | .hbm, ⟨75, _⟩ => ⟨S802816, .i32⟩
  | .hbm, ⟨76, _⟩ => ⟨S802816x1, .i32⟩
  | .hbm, ⟨77, _⟩ => ⟨S802816x64, .f32⟩
  | .hbm, ⟨78, _⟩ => ⟨S802816x64, .bf16⟩
  | .hbm, ⟨79, _⟩ => ⟨S802816x64, .f32⟩
  | .hbm, ⟨80, _⟩ => ⟨S_, .f32⟩
  | .hbm, ⟨81, _⟩ => ⟨S50000x64, .f32⟩
  | .hbm, ⟨82, _⟩ => ⟨S802816x1, .i32⟩
  | .hbm, ⟨83, _⟩ => ⟨S50000x64, .f32⟩
  | .hbm, ⟨84, _⟩ => ⟨S_, .f32⟩
  | .hbm, ⟨85, _⟩ => ⟨S802816, .f32⟩
  | .hbm, ⟨86, _⟩ => ⟨S_, .f32⟩
  | .hbm, ⟨87, _⟩ => ⟨S50000, .f32⟩
  | .hbm, ⟨88, _⟩ => ⟨S802816x1, .i32⟩
  | .hbm, ⟨89, _⟩ => ⟨S50000, .f32⟩
  | .hbm, ⟨90, _⟩ => ⟨S_, .f32⟩
  | .hbm, ⟨91, _⟩ => ⟨S50000, .f32⟩
  | .hbm, ⟨92, _⟩ => ⟨S50000, .f32⟩
  | .hbm, ⟨93, _⟩ => ⟨S50000x1, .f32⟩
  | .hbm, ⟨94, _⟩ => ⟨S50000x64, .f32⟩
  | .hbm, ⟨95, _⟩ => ⟨S50000x64, .f32⟩
  | .hbm, ⟨96, _⟩ => ⟨S64x64, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S1x64, .f32⟩
  | .hbm, ⟨101, _⟩ => ⟨S50000x64, .f32⟩
  | .local _ .vmem, ⟨0, _⟩ => ⟨S16384x64, .f32⟩
  | .local _ .vmem, ⟨1, _⟩ => ⟨S16384x64, .f32⟩
  | .local _ .vmem, ⟨2, _⟩ => ⟨S16384, .f32⟩
  | .local _ .vmem, ⟨3, _⟩ => ⟨S16384, .f32⟩
  | .local _ .vmem, ⟨4, _⟩ => ⟨S16384x64, .bf16⟩
  | .local _ .vmem, ⟨5, _⟩ => ⟨S16384x64, .bf16⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_c_3 : Ref sig .tc := ⟨.hbm, 20, rfl⟩
abbrev main_call3_v0 : Ref sig .tc := ⟨.hbm, 21, rfl⟩
abbrev main_call3_v1 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_c_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_12 : Ref sig .tc := ⟨.hbm, 69, rfl⟩
abbrev main_v43 : Ref sig .tc := ⟨.hbm, 70, rfl⟩
abbrev main_v44 : Ref sig .tc := ⟨.hbm, 71, rfl⟩
abbrev main_c_13 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_cst_16 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  pads_S800000_S802816_028160 : S800000.Pads (![0] : Fin 1 → Nat) ![2816] ![0] S802816
  h_S_ : 0 < S_.numel
  bcast_S_S802816 : S_.BroadcastsInDim S802816 (![] : Fin 0 → Fin S802816.rank)
  reducesTo_S8x128x64_S8x128_d2 : S8x128x64.ReducesTo [2] S8x128
  slices_S8x128_S8x64_0_0 : S8x128.Slices ![0, 0] S8x64
  slices_S8x128_S8x64_0_64 : S8x128.Slices ![0, 64] S8x64
  transposes_S8x64_S64x8_1_0 : S8x64.Transposes [1, 0] S64x8
  bcast_S802816_S802816x1_0 : S802816.BroadcastsInDim S802816x1 (![0] : Fin 1 → Fin S802816x1.rank)
  concatenates_S802816x1_S802816x1_S802816x2_d1 : Shape.Concatenates [S802816x1, S802816x1] S802816x2 1
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S16384_S16384_0 : ∀ a, (![0] : Fin 1 → Nat) a + S16384.size a ≤ S16384.size a
  h_S16384 : 0 < S16384.numel
  shapeCasts_S16384_S16384 : S16384.ShapeCasts S16384
  shapeCasts_S16384_S16384x1 : S16384.ShapeCasts S16384x1
  broadcasts_S16384x1_S16384x64 : S16384x1.Broadcasts S16384x64
  bitsLt_bf16_f32 : FTy.bits .bf16 < FTy.bits .f32
  packedbf16_S16384x64_S16384x64_0_0 : (Rect.unit (s := S16384x64) ![0, 0] S16384x64.size inb_S16384x64_S16384x64_0_0).PackedRows (EltTy.packing .bf16)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S64x128_S64x64_0_0 : S64x128.Slices ![0, 0] S64x64
  slices_S64x128_S64x64_0_64 : S64x128.Slices ![0, 64] S64x64
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S50000x64_S64x8_S50000x8_1_0_0_1_n_n_wf : DotDims.WF S50000x64 S64x8 S50000x8 [1] [0] [0] [1] [] []
  gather_S50000x8_S802816x2_S802816_n_01_n_n_01_1_11_wf : GatherDims.WF S50000x8 S802816x2 S802816 [] [0, 1] [] [0, 1] [] 1 ![1, 1]
  gather_S50000x64_S802816x1_S802816x64_1_0_n_n_0_1_164_wf : GatherDims.WF S50000x64 S802816x1 S802816x64 [1] [0] [] [0] [] 1 ![1, 64]
  scatter_S50000x64_S802816x1_S802816x64_1_0_0_1_wf : ScatterDims.WF S50000x64 S802816x1 S802816x64 [1] [0] [0] 1
  scatter_S50000_S802816x1_S802816_n_0_0_1_wf : ScatterDims.WF S50000 S802816x1 S802816 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S802816x64.size a
  hwx0_0 : ∀ i : grid0.Coords, EltTy.bits .f32 = 32 ∨ (Rect.block (s := S802816x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S802816.size a
  hwx0_1 : ∀ i : grid0.Coords, EltTy.bits .f32 = 32 ∨ (Rect.block (s := S802816) S16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S802816x64.size a
  hwx0_2 : ∀ i : grid0.Coords, EltTy.bits .bf16 = 32 ∨ (Rect.block (s := S802816x64) S16384x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf
def gather_S50000x8_S802816x2_S802816_n_01_n_n_01_1_11 : GatherDims S50000x8 S802816x2 S802816 where
  offsetDims := []
  collapsedSliceDims := [0, 1]
  operandBatchingDims := []
  startIndicesBatchingDims := []
  startIndexMap := [0, 1]
  indexVectorDim := 1
  sliceSizes := ![1, 1]
  wf := gather_S50000x8_S802816x2_S802816_n_01_n_n_01_1_11_wf
def gather_S50000x64_S802816x1_S802816x64_1_0_n_n_0_1_164 : GatherDims S50000x64 S802816x1 S802816x64 where
  offsetDims := [1]
  collapsedSliceDims := [0]
  operandBatchingDims := []
  startIndicesBatchingDims := []
  startIndexMap := [0]
  indexVectorDim := 1
  sliceSizes := ![1, 64]
  wf := gather_S50000x64_S802816x1_S802816x64_1_0_n_n_0_1_164_wf
def scatter_S50000x64_S802816x1_S802816x64_1_0_0_1 : ScatterDims S50000x64 S802816x1 S802816x64 where
  updateWindowDims := [1]
  insertedWindowDims := [0]
  scatterDimsToOperandDims := [0]
  indexVectorDim := 1
  wf := scatter_S50000x64_S802816x1_S802816x64_1_0_0_1_wf
def scatter_S50000_S802816x1_S802816_n_0_0_1 : ScatterDims S50000 S802816x1 S802816 where
  updateWindowDims := []
  insertedWindowDims := [0]
  scatterDimsToOperandDims := [0]
  indexVectorDim := 1
  wf := scatter_S50000_S802816x1_S802816_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v49) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S8x128x64 : Shape := ⟨3, ![8, 128, 64]⟩
abbrev S64x128 : Shape := ⟨2, ![64, 128]⟩
abbrev S64 : Shape := ⟨1, ![64]⟩
abbrev S_ : Shape := ⟨0, ![]⟩
abbrev S8x128 : Shape := ⟨2, ![8, 128]⟩
abbrev S8x64 : Shape := ⟨2, ![8, 64]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S128x64 : Shape := ⟨2, ![128, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S8x128x64, .f32⟩
  | .hbm, ⟨5, _⟩ => ⟨S64x128, .f32⟩
  | .hbm, ⟨6, _⟩ => ⟨S64, .f32⟩
  | .hbm, ⟨7, _⟩ => ⟨S_, .f32⟩
  | .hbm, ⟨8, _⟩ => ⟨S8x128, .f32⟩
  | .hbm, ⟨9, _⟩ => ⟨S8x64, .f32⟩
  | .hbm, ⟨10, _⟩ => ⟨S8x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x64, .f32⟩
  | .hbm, ⟨30, _⟩ => ⟨S_, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S800000, .f32⟩
  | .hbm, ⟨53, _⟩ => ⟨S800000, .f32⟩
  | .hbm, ⟨54, _⟩ => ⟨S800000, .f32⟩
  | .hbm, ⟨55, _⟩ => ⟨S800000, .f32⟩
  | .hbm, ⟨56, _⟩ => ⟨S_, .f32⟩
  | .hbm, ⟨57, _⟩ => ⟨S800000, .f32⟩
  | .hbm, ⟨58, _⟩ => ⟨S800000, .f32⟩
  | .hbm, ⟨59, _⟩ => ⟨S_, .f32⟩
  | .hbm, ⟨60, _⟩ => ⟨S800000, .f32⟩
  | .hbm, ⟨61, _⟩ => ⟨S800000, .f32⟩
  | .hbm, ⟨62, _⟩ => ⟨S800000x1, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S_, .f32⟩
  | .hbm, ⟨79, _⟩ => ⟨S800000, .f32⟩
  | .hbm, ⟨80, _⟩ => ⟨S_, .f32⟩
  | .hbm, ⟨81, _⟩ => ⟨S50000, .f32⟩
  | .hbm, ⟨82, _⟩ => ⟨S800000x1, .i32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x64, .f32⟩
  | .hbm, ⟨89, _⟩ => ⟨S50000x64, .f32⟩
  | .hbm, ⟨90, _⟩ => ⟨S50000x128, .f32⟩
  | .hbm, ⟨91, _⟩ => ⟨S128x64, .f32⟩
  | .hbm, ⟨92, _⟩ => ⟨S50000x64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S_, .f32⟩
  | .hbm, ⟨97, _⟩ => ⟨S_, .f32⟩
  | .hbm, ⟨98, _⟩ => ⟨S50000x64, .f32⟩
  | .hbm, ⟨99, _⟩ => ⟨S50000x64, .i1⟩
  | .hbm, ⟨100, _⟩ => ⟨S_, .f32⟩
  | .hbm, ⟨101, _⟩ => ⟨S50000x64, .f32⟩
  | .hbm, ⟨102, _⟩ => ⟨S50000x64, .f32⟩
  | .hbm, ⟨103, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_v70 : Ref sig .tc := ⟨.hbm, 103, rfl⟩

abbrev nD : Nat := 1
abbrev τ : Topo := Topo.v7x

variable {F : FTy → Type} [FloatOps F]

class Facts₀ : Prop where
  reducesTo_S8x128x64_S8x128_d2 : S8x128x64.ReducesTo [2] S8x128
  h_S_ : 0 < S_.numel
  slices_S8x128_S8x64_0_0 : S8x128.Slices ![0, 0] S8x64
  slices_S8x128_S8x64_0_64 : S8x128.Slices ![0, 64] S8x64
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  gather_S8x64_S800000x1_S800000x64_1_0_n_n_0_1_164_wf : GatherDims.WF S8x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S8x64_S800000x1_S800000x64_1_0_n_n_0_1_164 : GatherDims S8x64 S800000x1 S800000x64 where
  offsetDims := [1]
  collapsedSliceDims := [0]
  operandBatchingDims := []
  startIndicesBatchingDims := []
  startIndexMap := [0]
  indexVectorDim := 1
  sliceSizes := ![1, 64]
  wf := gather_S8x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KTerm.lean ====
/-
  What the kernel's program computes, as ONE term of its seven arguments (extended reals for the floats,
  32-bit words for the node and relation ids), written with the same whole-array operations the program applies.

  The edge arrays are padded from 800000 to 802816 = 49 · 16384 entries: the ids with zeros, and the
  scatter ids with the out-of-range value 50000 on the padded tail, so that the tail never lands.
  Per padded edge e:  logit e = P_dst[dst e, rel e] + P_src[src e, rel e]  with  P = x · (Σ_j W_r[·,·,j])ᵀ  split in
  its two halves; the gate is the logistic of the logit; the message is x[src e] scaled by the gate (`gated`, the
  first grid's whole-array result). Messages are summed per destination node and divided by max(count, 1).
  The second grid's whole-array result (`linear`) is  leaky_relu (x · Wxᵀ + agg · Waᵀ + b).
-/
import proofs.«411877_j2413771620668_3_alg».proof.KernelIdeal
import proofs.«411877_j2413771620668_3_alg».proof.Proof.Gen.KernelIdeal
import Idealize.ShloMosaic.PureOps.Ideal
import Idealize.ShloMosaic.Lib.ValueIdx

noncomputable section

namespace Cert.KernelIdeal.Val

open Idealize.ShloMosaic Idealize.ShloMosaic.ValueIdx Cert.KernelIdeal Cert.KernelIdeal.Gen

/-- An id array padded with 2816 zeros at the end. -/
def padded (v : IVec S800000 32) : IVec S802816 32 :=
  pad S802816 ![0] ![2816] ![0] v (id (constantI S_ 32 0#32)) pads_S800000_S802816_028160 h_S_

/-- Negative ids wrap once: `v < 0 ? v + n : v`, entry by entry. -/
def wrapped (n : BitVec 32) (v : IVec S802816 32) : IVec S802816 32 :=
  select (cmpi .slt v (broadcastInDim S802816 ![] bcast_S_S802816 (constantI S_ 32 0#32)))
    (addi v (broadcastInDim S802816 ![] bcast_S_S802816 (constantI S_ 32 n))) v

/-- A vector of ids as a one-column matrix. -/
def column (v : IVec S802816 32) : IVec S802816x1 32 := broadcastInDim S802816x1 ![0] bcast_S802816_S802816x1_0 v

/-- Two vectors of ids side by side: row e is (a e, b e). -/
def pairs (a b : IVec S802816 32) : IVec S802816x2 32 :=
  concatenate S802816x2 1 [⟨S802816x1, column a⟩, ⟨S802816x1, column b⟩] concatenates_S802816x1_S802816x1_S802816x2_d1

/-- Σ_j W_r[r, k, j]. -/
def relSum (Wr : FVec Ideal S8x128x64 .f32) : FVec Ideal S8x128 .f32 :=
  Host.reduceAdd Wr (constant (F := Ideal) S_ .f32 0x00000000#32) reducesTo_S8x128x64_S8x128_d2 h_S_

def wDst (Wr : FVec Ideal S8x128x64 .f32) : FVec Ideal S8x64 .f32 := extractStridedSlice S8x64 ![0, 0] (relSum Wr) slices_S8x128_S8x64_0_0
def wSrc (Wr : FVec Ideal S8x128x64 .f32) : FVec Ideal S8x64 .f32 := extractStridedSlice S8x64 ![0, 64] (relSum Wr) slices_S8x128_S8x64_0_64

/-- x · wᵀ : one scalar per (node, relation). -/
def proj (x : FVec Ideal S50000x64 .f32) (w : FVec Ideal S8x64 .f32) : FVec Ideal S50000x8 .f32 :=
  Host.dotGeneral dot_S50000x64_S64x8_S50000x8_1_0_0_1_n_n none x (transpose S64x8 [1, 0] w transposes_S8x64_S64x8_1_0)

/-- The gate logit of every padded edge. -/
def logit (x : FVec Ideal S50000x64 .f32) (src dst rel : IVec S800000 32) (Wr : FVec Ideal S8x128x64 .f32) : FVec Ideal S802816 .f32 :=
  addf
    (Host.gather gather_S50000x8_S802816x2_S802816_n_01_n_n_01_1_11 (proj x (wDst Wr))
      (pairs (wrapped 50000#32 (padded dst)) (wrapped 8#32 (padded rel))))
    (Host.gather gather_S50000x8_S802816x2_S802816_n_01_n_n_01_1_11 (proj x (wSrc Wr))
      (pairs (wrapped 50000#32 (padded src)) (wrapped 8#32 (padded rel))))

/-- x[src e] for every padded edge. -/
def xSrc (x : FVec Ideal S50000x64 .f32) (src : IVec S800000 32) : FVec Ideal S802816x64 .f32 :=
  Host.gather gather_S50000x64_S802816x1_S802816x64_1_0_n_n_0_1_164 x (column (wrapped 50000#32 (padded src)))

/-- The scatter ids: dst on the real edges, 50000 (outside the node range) on the padded tail. -/
def segIds (dst : IVec S800000 32) : IVec S802816 32 :=
  select (cmpi .slt (iotaInDim S802816 32 0) (broadcastInDim S802816 ![] bcast_S_S802816 (constantI S_ 32 800000#32)))
    (padded dst) (broadcastInDim S802816 ![] bcast_S_S802816 (id (constantI S_ 32 50000#32)))

/-- The first grid's result as one whole-array function: row e of the messages is x[src e] times the logistic of edge e's logit. -/
def gated (xs : FVec Ideal S802816x64 .f32) (lg : FVec Ideal S802816 .f32) : FVec Ideal S802816x64 .bf16 :=
  fun j => xs j * Ideal.logistic (lg (ix1 (n := 802816) (j 0)))

theorem gated_apply (xs : FVec Ideal S802816x64 .f32) (lg : FVec Ideal S802816 .f32) (e : Fin 802816) (q : Fin 64) :
    gated xs lg (ix2 e q) = xs (ix2 e q) * Ideal.logistic (lg (ix1 e)) := rfl

/-- Per-node sum of the messages. -/
def msgSum (msg : FVec Ideal S802816x64 .bf16) (ids : IVec S802816 32) : FVec Ideal S50000x64 .f32 :=
  Host.scatterAdd scatter_S50000x64_S802816x1_S802816x64_1_0_0_1
    (broadcastInDim S50000x64 ![] bcast_S_S50000x64 (constant (F := Ideal) S_ .f32 0x00000000#32))
    (column ids) (extf .f32 msg bitsLt_bf16_f32)

/-- Per-node count of incoming edges. -/
def cnt (ids : IVec S802816 32) : FVec Ideal S50000 .f32 :=
  Host.scatterAdd scatter_S50000_S802816x1_S802816_n_0_0_1
    (broadcastInDim S50000 ![] bcast_S_S50000 (constant (F := Ideal) S_ .f32 0x00000000#32))
    (column ids) (broadcastInDim S802816 ![] bcast_S_S802816 (constant (F := Ideal) S_ .f32 0x3F800000#32))

/-- The mean message per node: sum / max(count, 1). -/
def agg (msg : FVec Ideal S802816x64 .bf16) (ids : IVec S802816 32) : FVec Ideal S50000x64 .f32 :=
  Host.divf (msgSum msg ids)
    (broadcastInDim S50000x64 ![0, 1] bcast_S50000x1_S50000x64_0_1
      (broadcastInDim S50000x1 ![0] bcast_S50000_S50000x1_0
        (maximumf (cnt ids) (broadcastInDim S50000 ![] bcast_S_S50000 (constant (F := Ideal) S_ .f32 0x3F800000#32)))))

def wxT (Wl : FVec Ideal S64x128 .f32) : FVec Ideal S64x64 .f32 :=
  transpose S64x64 [1, 0] (extractStridedSlice S64x64 ![0, 0] Wl slices_S64x128_S64x64_0_0) transposes_S64x64_S64x64_1_0
def waT (Wl : FVec Ideal S64x128 .f32) : FVec Ideal S64x64 .f32 :=
  transpose S64x64 [1, 0] (extractStridedSlice S64x64 ![0, 64] Wl slices_S64x128_S64x64_0_64) transposes_S64x64_S64x64_1_0
def bRow (b : FVec Ideal S64 .f32) : FVec Ideal S1x64 .f32 := shapeCast S1x64 b shapeCasts_S64_S1x64

/-- leaky_relu with slope f32(0.01), on one extended real. -/
def lrelu (z : EReal) : EReal :=
  Scalar.select (FloatOps.cmpf (F := Ideal) (φ := .f32) .oge z (Ideal.ofBits .f32 0x00000000#32)) z (Ideal.ofBits .f32 0x3C23D70A#32 * z)

/-- Entry (n, o) of the second grid's result: leaky_relu (Σ_k x[n,k]·wx[k,o] + Σ_k a[n,k]·wa[k,o] + b[0,o]). -/
def linearAt (x a : FVec Ideal S50000x64 .f32) (wx wa : FVec Ideal S64x64 .f32) (b2 : FVec Ideal S1x64 .f32) (n : Fin 50000) (o : Fin 64) : EReal :=
  lrelu (((∑ k : Fin 64, x (ix2 n k) * wx (ix2 k o)) + (∑ k : Fin 64, a (ix2 n k) * wa (ix2 k o))) + b2 (ix2 (0 : Fin 1) o))

/-- The second grid's result as one whole-array function. -/
def linear (x a : FVec Ideal S50000x64 .f32) (wx wa : FVec Ideal S64x64 .f32) (b2 : FVec Ideal S1x64 .f32) : FVec Ideal S50000x64 .f32 :=
  fun j => linearAt x a wx wa b2 (j 0) (j 1)

/-- The kernel program's result array, of its arguments. -/
def kterm (x : FVec Ideal S50000x64 .f32) (src dst rel : IVec S800000 32) (Wr : FVec Ideal S8x128x64 .f32)
    (Wl : FVec Ideal S64x128 .f32) (b : FVec Ideal S64 .f32) : FVec Ideal S50000x64 .f32 :=
  linear x (agg (gated (xSrc x src) (logit x src dst rel Wr)) (segIds dst)) (wxT Wl) (waT Wl) (bRow b)

end Cert.KernelIdeal.Val

end
-- ==== Proof.LibLayout2.lean ====
/-
  Layout operations of small rank read at an index, for any extents: a rank-1 array padded at its end; two
  one-column matrices side by side; two matrices side by side along their columns; the keepdims forms
  [a] → [a, 1] → [a, b] of a vector laid along the rows (as a broadcast_in_dim pair, and as a shape cast followed
  by a trailing broadcast); a vector as a row [1, b] → [a, b]; a scalar splat.
-/
import Idealize.ShloMosaic.PureOps.ShapeOps
import Idealize.ShloMosaic.Lib.ValueIdx

namespace IndexOpsLib

open Idealize.ShloMosaic Idealize.ShloMosaic.ValueIdx

/-- A rank-1 array of n entries padded to T with the scalar `v` after its end: entry e is the array's when e < n, else `v`. -/
theorem pad_tail_apply {α : Type} {n k T : Nat} (x : (⟨1, ![n]⟩ : Shape).Idx → α) {u : Shape} (v : u.Idx → α)
    (h : (⟨1, ![n]⟩ : Shape).Pads (![0] : Fin 1 → Nat) ![k] ![0] ⟨1, ![T]⟩) (hu : 0 < u.numel) (e : Fin T) :
    pad ⟨1, ![T]⟩ ![0] ![k] ![0] x v h hu (ix1 e) = if h' : e.val < n then x (ix1 ⟨e.val, h'⟩) else v (Shape.Idx.first hu) := by
  unfold pad
  split
  · next hin =>
    have h0 := (hin ⟨0, Nat.one_pos⟩).2.2
    change (e.val - 0) / (0 + 1) < n at h0
    have h' : e.val < n := by omega
    rw [dif_pos h']
    congr 1
    funext a
    match a with
    | ⟨0, _⟩ =>
      apply Fin.ext
      show (e.val - 0) / (0 + 1) = e.val
      omega
  · next hin =>
    have h' : ¬ e.val < n := fun h' => hin (fun a => by
      match a with
      | ⟨0, _⟩ =>
        refine ⟨Nat.zero_le _, ?_, ?_⟩
        · show (e.val - 0) % (0 + 1) = 0
          omega
        · show (e.val - 0) / (0 + 1) < n
          omega)
    rw [dif_neg h']

/-- Where a position below the first of two sizes falls when the two are laid end to end: in the first piece, at itself. -/
private theorem locate_two_left (n m c : Nat) (h : c < [n, m].sum) (hc : c < n) :
    locate [n, m] c h = ⟨⟨0, Nat.zero_lt_succ _⟩, ⟨c, hc⟩⟩ := by
  unfold locate
  rw [dif_pos hc]

/-- A position n + c with c below the second size falls in the second piece, at c. -/
private theorem locate_two_right (n m c : Nat) (h : n + c < [n, m].sum) (hc : c < m) :
    locate [n, m] (n + c) h = ⟨⟨1, Nat.succ_lt_succ (Nat.zero_lt_succ _)⟩, ⟨c, hc⟩⟩ := by
  have e : ∀ (d : Nat) (hd : d < [m].sum), d = c → locate [m] d hd = ⟨⟨0, Nat.zero_lt_succ _⟩, ⟨c, hc⟩⟩ := by
    intro d hd hdc
    subst hdc
    unfold locate
    rw [dif_pos hc]
  unfold locate
  rw [dif_neg (by omega)]
  simp only []
  rw [e _ _ (by omega)]
  rfl

/-- A concatenation read at `j`, once the piece and the position within it that `j`'s coordinate on the joined axis
    falls at are known to be `kr`: it is piece `kr.1` read at the index `y` whose coordinate on the joined axis is
    `kr.2` and whose other coordinates are `j`'s. -/
private theorem concatenate_of_locate {α : Type} (t : Shape) (ax : Fin t.rank) (xs : List ((s : Shape) × (s.Idx → α)))
    (h : Shape.Concatenates (xs.map (·.1)) t ax) (j : t.Idx)
    (pf : (j ax).val < ((xs.map (·.1)).map fun s => if h : s.rank = t.rank then s.size (ax.cast h.symm) else 0).sum)
    (kr : (k : Fin ((xs.map (·.1)).map fun s => if h : s.rank = t.rank then s.size (ax.cast h.symm) else 0).length) ×
      Fin ((xs.map (·.1)).map fun s => if h : s.rank = t.rank then s.size (ax.cast h.symm) else 0)[k])
    (hkr : locate _ (j ax).val pf = kr)
    (hk : kr.1.val < xs.length) (hr : (xs[kr.1.val]).1.rank = t.rank) (y : (xs[kr.1.val]).1.Idx)
    (hy : ∀ b : Fin (xs[kr.1.val]).1.rank, (y b).val = if b.cast hr = ax then kr.2.val else (j (b.cast hr)).val) :
    concatenate t ax xs h j = (xs[kr.1.val]).2 y := by
  subst hkr
  unfold concatenate
  simp only []
  refine congrArg _ (funext fun b => Fin.ext ?_)
  rw [hy b]
  by_cases hb : b.cast hr = ax
  · rw [dif_pos hb, if_pos hb]; rfl
  · rw [dif_neg hb, if_neg hb]; rfl

/-- Two [E, 1] columns side by side: row e is (a e, b e). -/
theorem concat_cols_apply0 {α : Type} {E : Nat} (a b : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e (0 : Fin 2)) = a (ix2 e (0 : Fin 1)) := by
  have hs : (0 : Nat) < [1, 1].sum := by show (0 : Nat) < 1 + (1 + 0); omega
  refine concatenate_of_locate ⟨2, ![E, 2]⟩ 1 [⟨⟨2, ![E, 1]⟩, a⟩, ⟨⟨2, ![E, 1]⟩, b⟩] h (ix2 e (0 : Fin 2)) hs
    ⟨⟨0, Nat.zero_lt_succ _⟩, ⟨0, Nat.one_pos⟩⟩ (locate_two_left 1 1 0 hs Nat.one_pos) (Nat.zero_lt_succ _) rfl
    (ix2 e (0 : Fin 1)) ?_
  intro b_1
  match b_1 with
  | ⟨0, _⟩ => rfl
  | ⟨1, _⟩ => rfl

theorem concat_cols_apply1 {α : Type} {E : Nat} (a b : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e (1 : Fin 2)) = b (ix2 e (0 : Fin 1)) := by
  have hs : 1 + 0 < [1, 1].sum := by show 1 + 0 < 1 + (1 + 0); omega
  refine concatenate_of_locate ⟨2, ![E, 2]⟩ 1 [⟨⟨2, ![E, 1]⟩, a⟩, ⟨⟨2, ![E, 1]⟩, b⟩] h (ix2 e (1 : Fin 2)) hs
    ⟨⟨1, Nat.succ_lt_succ (Nat.zero_lt_succ _)⟩, ⟨0, Nat.one_pos⟩⟩ (locate_two_right 1 1 0 hs Nat.one_pos)
    (Nat.succ_lt_succ (Nat.zero_lt_succ _)) rfl (ix2 e (0 : Fin 1)) ?_
  intro b_1
  match b_1 with
  | ⟨0, _⟩ => rfl
  | ⟨1, _⟩ => rfl

/-- Two [N, C] matrices side by side into [N, C + C]: column k < C reads the first, column C + k the second. -/
theorem concat_axis1_left {α : Type} {N C T : Nat} (a b : (⟨2, ![N, C]⟩ : Shape).Idx → α)
    (h : Shape.Concatenates [(⟨2, ![N, C]⟩ : Shape), ⟨2, ![N, C]⟩] ⟨2, ![N, T]⟩ 1) (n : Fin N) (k : Fin C) (hk : k.val < T) :
    concatenate ⟨2, ![N, T]⟩ 1 [⟨⟨2, ![N, C]⟩, a⟩, ⟨⟨2, ![N, C]⟩, b⟩] h (ix2 n (⟨k.val, hk⟩ : Fin T)) = a (ix2 n k) := by
  have hs : k.val < [C, C].sum := by simp; omega
  refine concatenate_of_locate ⟨2, ![N, T]⟩ 1 [⟨⟨2, ![N, C]⟩, a⟩, ⟨⟨2, ![N, C]⟩, b⟩] h (ix2 n (⟨k.val, hk⟩ : Fin T)) hs
    ⟨⟨0, Nat.zero_lt_succ _⟩, ⟨k.val, k.isLt⟩⟩ (locate_two_left C C k.val hs k.isLt) (Nat.zero_lt_succ _) rfl (ix2 n k) ?_
  intro b_1
  match b_1 with
  | ⟨0, _⟩ => rfl
  | ⟨1, _⟩ => rfl

theorem concat_axis1_right {α : Type} {N C T : Nat} (a b : (⟨2, ![N, C]⟩ : Shape).Idx → α)
    (h : Shape.Concatenates [(⟨2, ![N, C]⟩ : Shape), ⟨2, ![N, C]⟩] ⟨2, ![N, T]⟩ 1) (n : Fin N) (k : Fin C) (hk : C + k.val < T) :
    concatenate ⟨2, ![N, T]⟩ 1 [⟨⟨2, ![N, C]⟩, a⟩, ⟨⟨2, ![N, C]⟩, b⟩] h (ix2 n (⟨C + k.val, hk⟩ : Fin T)) = b (ix2 n k) := by
  have hs : C + k.val < [C, C].sum := by simp
  refine concatenate_of_locate ⟨2, ![N, T]⟩ 1 [⟨⟨2, ![N, C]⟩, a⟩, ⟨⟨2, ![N, C]⟩, b⟩] h (ix2 n (⟨C + k.val, hk⟩ : Fin T)) hs
    ⟨⟨1, Nat.succ_lt_succ (Nat.zero_lt_succ _)⟩, ⟨k.val, k.isLt⟩⟩ (locate_two_right C C k.val hs k.isLt)
    (Nat.succ_lt_succ (Nat.zero_lt_succ _)) rfl (ix2 n k) ?_
  intro b_1
  match b_1 with
  | ⟨0, _⟩ => rfl
  | ⟨1, _⟩ => rfl

/-- A vector as a one-column matrix (broadcast_in_dim, dims = [0]): entry (e, 0) is the vector's entry e. -/
theorem col_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  simp only [broadcastInDim]
  congr 1
  funext a
  match a with
  | ⟨0, _⟩ =>
    apply Fin.ext
    have he := e.isLt
    split
    · next h1 => change E = 1 at h1; show (0 : Nat) = e.val; omega
    · rfl

/-- A one-column matrix spread over C columns (broadcast_in_dim, dims = [0, 1]): entry (e, c) is the column's entry (e, 0). -/
theorem spread_col_apply {α : Type} {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (0 : Fin 1)) := by
  simp only [broadcastInDim]
  congr 1
  funext a
  match a with
  | ⟨0, _⟩ =>
    apply Fin.ext
    have he := e.isLt
    split
    · next h1 => change E = 1 at h1; show (0 : Nat) = e.val; omega
    · rfl
  | ⟨1, _⟩ =>
    apply Fin.ext
    split
    · rfl
    · next h1 => exact absurd rfl h1

/-- A vector as a one-row matrix (broadcast_in_dim, dims = [1]): entry (0, c) is the vector's entry c. -/
theorem row_apply {α : Type} {C : Nat} (h : (⟨1, ![C]⟩ : Shape).BroadcastsInDim ⟨2, ![1, C]⟩ ![1])
    (v : (⟨1, ![C]⟩ : Shape).Idx → α) (c : Fin C) :
    broadcastInDim ⟨2, ![1, C]⟩ ![1] h v (ix2 (0 : Fin 1) c) = v (ix1 c) := by
  simp only [broadcastInDim]
  congr 1
  funext a
  match a with
  | ⟨0, _⟩ =>
    apply Fin.ext
    have hc := c.isLt
    split
    · next h1 => change C = 1 at h1; show (0 : Nat) = c.val; omega
    · rfl

/-- A one-row matrix spread over N rows (broadcast_in_dim, dims = [0, 1]): entry (n, c) is the row's entry (0, c). -/
theorem spread_row_apply {α : Type} {N C : Nat} (h : (⟨2, ![1, C]⟩ : Shape).BroadcastsInDim ⟨2, ![N, C]⟩ ![0, 1])
    (v : (⟨2, ![1, C]⟩ : Shape).Idx → α) (n : Fin N) (c : Fin C) :
    broadcastInDim ⟨2, ![N, C]⟩ ![0, 1] h v (ix2 n c) = v (ix2 (0 : Fin 1) c) := by
  simp only [broadcastInDim]
  congr 1
  funext a
  match a with
  | ⟨0, _⟩ =>
    apply Fin.ext
    split
    · rfl
    · next h1 => exact absurd rfl h1
  | ⟨1, _⟩ =>
    apply Fin.ext
    have hc := c.isLt
    split
    · next h1 => change C = 1 at h1; show (0 : Nat) = c.val; omega
    · rfl

/-- A scalar splat (broadcast_in_dim, no dims): every entry is the scalar. -/
theorem splat_apply {α : Type} {t : Shape} (h : (⟨0, ![]⟩ : Shape).BroadcastsInDim t ![]) (v : (⟨0, ![]⟩ : Shape).Idx → α) (j : t.Idx) :
    broadcastInDim t ![] h v j = v ix0 := by
  simp only [broadcastInDim]
  congr 1
  funext a
  exact Fin.elim0 a

/-- The vector forms inside a kernel body: a shape cast [a] → [a, 1] read at (p, 0) is the vector at p. -/
theorem shapeCast_col_apply {α : Type} {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  unfold shapeCast
  refine congrArg v (Shape.reshapeEquiv_eq_of_rowMajor h ?_)
  rw [Shape.rowMajor_val_two, Shape.rowMajor_val_one]
  show p.val = p.val * 1 + 0
  omega

/-- A trailing broadcast [a, 1] → [a, b] read at (p, q) is the column at (p, 0). -/
theorem broadcastTo_col_apply {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  unfold broadcastTo
  refine congrArg v (funext fun ax => ?_)
  match ax with
  | ⟨0, _⟩ =>
    apply Fin.ext
    have hp := p.isLt
    split
    · next h1 => change a = 1 at h1; show (0 : Nat) = p.val; omega
    · rfl
  | ⟨1, _⟩ =>
    apply Fin.ext
    split
    · rfl
    · next h1 => exact absurd rfl h1

end IndexOpsLib
-- ==== Proof.Region0.lean ====
/-
  The first grid (49 points, 16384 edges each), blocks to whole array: after the grid the message array holds, at
  row e and column q, x_src[e, q] times the logistic of logit e — one function of the two arrays the grid reads.
-/
import proofs.«411877_j2413771620668_3_alg».proof.Proof.Gen.KernelIdeal.Frame
import proofs.«411877_j2413771620668_3_alg».proof.Proof.KTerm
import proofs.«411877_j2413771620668_3_alg».proof.Proof.LibLayout2
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a rank-2 and of a rank-1 whole-buffer access, however spelt. -/
theorem gate_zeros2 : (![0, 0] : Fin 2 → Nat) = fun _ => 0 := funext fun a => match a with | ⟨0, _⟩ => rfl | ⟨1, _⟩ => rfl
theorem gate_zeros1 : (![0] : Fin 1 → Nat) = fun _ => 0 := funext fun a => match a with | ⟨0, _⟩ => rfl

/-- The gate body at one entry of its block: x[p, q] times the logistic of the logit of row p. -/
theorem gate_pay_apply (x0 : FVec Ideal S16384x64 .f32) (x1 : FVec Ideal S16384 .f32) (p : Fin 16384) (q : Fin 64) :
    k0_pay1 (F := Ideal) x0 x1 (ix2 p q) = x0 (ix2 p q) * Ideal.logistic (x1 (ix1 p)) := by
  unfold k0_pay1
  rw [truncf_apply, mulf_apply, shapeCast_self, IndexOpsLib.broadcastTo_col_apply, IndexOpsLib.shapeCast_col_apply, shapeCast_self]
  rfl

/-- The printed index maps over the 49 points: every window's block index on the long axis is the point, and 0 across. -/
theorem gate_idx : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the gated messages: rows 16384·t … 16384·t + 16383 of the two arrays read. -/
theorem gate_flushed (c : Dev nD) (t : Fin cfg0.N) :
    (dat0 (F := Ideal) V c).flushed 2 t
      = ((cfg0.win 2).blk t).view.read (Elt Ideal) (gated (V c main_v49) (V c main_v42)) := by
  show (cfg0.win 2).cut (grid0.coords t) ((dat0 V c).after 2 t) = _
  rw [after0_2]
  unfold out0_2
  rw [View.canon_unit_zero gate_zeros2]
  simp only [View.ld_unit_zero (S := S16384x64) gate_zeros2, View.ld_unit_zero (S := S16384) gate_zeros1]
  obtain ⟨e0, e1, e2, e3, e4⟩ := gate_idx t
  have ht : t.val < 49 := t.isLt
  funext j
  obtain ⟨p, q, rfl⟩ : ∃ (p : Fin 16384) (q : Fin 64), j = ix2 p q := ⟨j 0, j 1, eq_ix2 j⟩
  have hp : p.val < 16384 := p.isLt
  have hq : q.val < 64 := q.isLt
  show k0_pay1 (iblk0 V c 0 t) (iblk0 V c 1 t) (ix2 p q)
    = gated (V c main_v49) (V c main_v42) (((cfg0.win 2).blk t).view.emb (ix2 p q))
  refine (gate_pay_apply _ _ p q).trans ?_
  have hrow : t.val * 16384 + p.val < 802816 := by omega
  have h2 : ((cfg0.win 2).blk t).view.emb (ix2 p q) = ix2 (⟨t.val * 16384 + p.val, hrow⟩ : Fin 802816) q := by
    funext a; apply Fin.ext
    match a with
    | ⟨0, _⟩ => show win0_2.index t (0 : Fin 2) * 16384 + 1 * p.val = t.val * 16384 + p.val; omega
    | ⟨1, _⟩ => show win0_2.index t (1 : Fin 2) * 64 + 1 * q.val = q.val; omega
  have h0 : iblk0 V c 0 t (ix2 p q) = V c main_v49 (ix2 (⟨t.val * 16384 + p.val, hrow⟩ : Fin 802816) q) := by
    show V c main_v49 (((cfg0.win 0).blk t).view.emb (ix2 p q)) = V c main_v49 _
    refine congrArg (V c main_v49) ?_
    funext a; apply Fin.ext
    match a with
    | ⟨0, _⟩ => show win0_0.index t (0 : Fin 2) * 16384 + 1 * p.val = t.val * 16384 + p.val; omega
    | ⟨1, _⟩ => show win0_0.index t (1 : Fin 2) * 64 + 1 * q.val = q.val; omega
  have h1 : iblk0 V c 1 t (ix1 p) = V c main_v42 (ix1 (⟨t.val * 16384 + p.val, hrow⟩ : Fin 802816)) := by
    show V c main_v42 (((cfg0.win 1).blk t).view.emb (ix1 p)) = V c main_v42 _
    refine congrArg (V c main_v42) ?_
    funext a; apply Fin.ext
    match a with
    | ⟨0, _⟩ => show win0_1.index t (0 : Fin 1) * 16384 + 1 * p.val = t.val * 16384 + p.val; omega
  rw [h2, gated_apply, h0, h1]

/-- An index of the message array is in point t's block iff each coordinate is in the block's range on its axis. -/
theorem gate_mem_blk (t : Fin cfg0.N) (i : S802816x64.Idx) :
    i ∈ ((cfg0.win 2).blk t).view.set ↔ ∀ a : Fin 2, win0_2.index t a * S16384x64.size a ≤ (i a).val
      ∧ (i a).val < win0_2.index t a * S16384x64.size a + S16384x64.size a := by
  show i ∈ ((View.whole main_v50).slice (win0_2.rect t)).set ↔ _
  rw [View.set_slice_whole, Rect.mem_set_unit]
  exact Iff.rfl

/-- Row r of the message array is in the block of point r / 16384: the 49 blocks of 16384 rows tile the 802816 rows. -/
theorem gate_cover (i : S802816x64.Idx) :
    ∃ t : Fin cfg0.N, (cfg0.win 2).flush t = true ∧ i ∈ ((cfg0.win 2).blk t).view.set := by
  have hi0 : (i 0).val < 802816 := (i 0).isLt
  have hi1 : (i 1).val < 64 := (i 1).isLt
  have hT : (i 0).val / 16384 < 49 := by omega
  obtain ⟨e0, e1, e2, e3, e4⟩ := gate_idx ⟨(i 0).val / 16384, hT⟩
  have e3' : win0_2.index ⟨(i 0).val / 16384, hT⟩ (0 : Fin 2) = (i 0).val / 16384 := e3
  refine ⟨⟨(i 0).val / 16384, hT⟩, flush0_2 _, ?_⟩
  rw [gate_mem_blk]
  intro a
  match a with
  | ⟨0, _⟩ =>
    show win0_2.index ⟨(i 0).val / 16384, hT⟩ (0 : Fin 2) * 16384 ≤ (i 0).val
      ∧ (i 0).val < win0_2.index ⟨(i 0).val / 16384, hT⟩ (0 : Fin 2) * 16384 + 16384
    omega
  | ⟨1, _⟩ =>
    show win0_2.index ⟨(i 0).val / 16384, hT⟩ (1 : Fin 2) * 64 ≤ (i 1).val
      ∧ (i 1).val < win0_2.index ⟨(i 0).val / 16384, hT⟩ (1 : Fin 2) * 64 + 64
    omega

theorem region0 (V : (c : Dev nD) → (b : Ref sig .tc) → Buf (Elt Ideal) ((c : Thread nD τ).loc b)) (c : Dev nD) :
    (dat0 (F := Ideal) V c).arrAt 2 cfg0.N = gated (V c main_v49) (V c main_v42) :=
  (dat0 (F := Ideal) V c).arrAt_eq_of_cover 2 (gated (V c main_v49) (V c main_v42))
    (fun t _ => gate_flushed V c t) gate_cover

end Cert.KernelIdeal.Val

end
-- ==== Proof.Region1.lean ====
/-
  The second grid (10 points, 5000 nodes each), blocks to whole array: after the grid the result array holds, at
  node n and output o, leaky_relu (Σ_k x[n,k]·wx[k,o] + Σ_k agg[n,k]·wa[k,o] + b[0,o]) — one function of the five
  arrays the grid reads.
-/
import proofs.«411877_j2413771620668_3_alg».proof.Proof.Gen.KernelIdeal.Frame
import proofs.«411877_j2413771620668_3_alg».proof.Proof.KTerm
import proofs.«411877_j2413771620668_3_alg».proof.Proof.LibLayout2
import Idealize.ShloMosaic.Lib.Pipeline.Value
import Idealize.ShloMosaic.PureOps.Ideal.Laws
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a rank-2 whole-buffer access, however spelt. -/
theorem lin_zeros2 : (![0, 0] : Fin 2 → Nat) = fun _ => 0 := funext fun a => match a with | ⟨0, _⟩ => rfl | ⟨1, _⟩ => rfl

/-! ## The product of a [5000, 64] block with a [64, 64] matrix, entry by entry -/

theorem lin_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lin_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem lin_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem lin_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry (p, o) of the block's product with a matrix, accumulated into zero: Σ_k a[p, k] · w[k, o]. -/
theorem lin_matmul_apply (a : FVec Ideal S5000x64 .bf16) (w : FVec Ideal S64x64 .bf16) (p : Fin 5000) (o : Fin 64) :
    matmul dot_S5000x64_S64x64_S5000x64_1_0_0_1_n_n none a w (constant (F := Ideal) S5000x64 .f32 0x00000000#32) (ix2 p o)
      = ∑ k : Fin 64, a (ix2 p k) * w (ix2 k o) := by
  show FloatOps.matmul dot_S5000x64_S64x64_S5000x64_1_0_0_1_n_n none a w (constant (F := Ideal) S5000x64 .f32 0x00000000#32) (ix2 p o) = _
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p o)
      ((ValueIdx.contrEquiv1 dot_S5000x64_S64x64_S5000x64_1_0_0_1_n_n 64 rfl rfl).symm k) = ix2 p k :=
    funext fun ax => Fin.ext (by
      match ax with
      | ⟨0, _⟩ => exact lin_lhs_0 _ _
      | ⟨1, _⟩ => exact (lin_lhs_1 _ _).trans hk)
  have er : dot_S5000x64_S64x64_S5000x64_1_0_0_1_n_n.rhsIdx (ix2 p o)
      ((ValueIdx.contrEquiv1 dot_S5000x64_S64x64_S5000x64_1_0_0_1_n_n 64 rfl rfl).symm k) = ix2 k o :=
    funext fun ax => Fin.ext (by
      match ax with
      | ⟨0, _⟩ => exact (lin_rhs_0 _ _).trans hk
      | ⟨1, _⟩ => exact lin_rhs_1 _ _)
  rw [el, er]

/-! ## The body at an entry of its block -/

/-- The body's value before the leaky rectifier: the two products' sum plus the bias row laid along every row. -/
def lin_pre (v0 v2 : FVec Ideal S5000x64 .f32) (v5 v8 : FVec Ideal S64x64 .f32) (v14 : FVec Ideal S1x64 .f32) :
    FVec Ideal S5000x64 .f32 :=
  addf
    (addf
      (matmul dot_S5000x64_S64x64_S5000x64_1_0_0_1_n_n none (truncf .bf16 v0 bitsLt_bf16_f32)
        (truncf .bf16 (shapeCast S64x64 v5 shapeCasts_S64x64_S64x64) bitsLt_bf16_f32) (constant S5000x64 .f32 0x00000000#32))
      (matmul dot_S5000x64_S64x64_S5000x64_1_0_0_1_n_n none
        (truncf .bf16 (shapeCast S5000x64 v2 shapeCasts_S5000x64_S5000x64) bitsLt_bf16_f32)
        (truncf .bf16 (shapeCast S64x64 v8 shapeCasts_S64x64_S64x64) bitsLt_bf16_f32) (constant S5000x64 .f32 0x00000000#32)))
    (broadcastTo S5000x64 (shapeCast S1x64 v14 shapeCasts_S1x64_S1x64) broadcasts_S1x64_S5000x64)

/-- The body is the leaky rectifier of that value, entry by entry. -/
theorem lin_pay_eq_lrelu (v0 v2 : FVec Ideal S5000x64 .f32) (v5 v8 : FVec Ideal S64x64 .f32) (v14 : FVec Ideal S1x64 .f32)
    (j : S5000x64.Idx) : k1_pay1 (F := Ideal) v0 v2 v5 v8 v14 j = lrelu (lin_pre v0 v2 v5 v8 v14 j) := rfl

/-- The value before the rectifier at (p, o): Σ_k x[p,k]·wx[k,o] + Σ_k a[p,k]·wa[k,o] + b[0,o]. -/
theorem lin_pre_apply (v0 v2 : FVec Ideal S5000x64 .f32) (v5 v8 : FVec Ideal S64x64 .f32) (v14 : FVec Ideal S1x64 .f32)
    (p : Fin 5000) (o : Fin 64) :
    lin_pre v0 v2 v5 v8 v14 (ix2 p o)
      = ((∑ k : Fin 64, v0 (ix2 p k) * v5 (ix2 k o)) + (∑ k : Fin 64, v2 (ix2 p k) * v8 (ix2 k o))) + v14 (ix2 (0 : Fin 1) o) := by
  unfold lin_pre
  rw [addf_apply, addf_apply, lin_matmul_apply, lin_matmul_apply, ValueIdx.broadcastTo_1b_ab_apply]
  simp only [shapeCast_self, truncf_apply]

/-! ## From the blocks to the array -/

/-- The printed index maps over the 10 points: the node blocks (both inputs and the result) sit at the point on the long
    axis and 0 across; the two matrices and the bias row are whole, at (0, 0). -/
theorem lin_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point t writes back is block t of the whole-array result: nodes 5000·t … 5000·t + 4999. -/
theorem lin_flushed (c : Dev nD) (t : Fin cfg1.N) :
    (dat1 (F := Ideal) V c).flushed 5 t
      = ((cfg1.win 5).blk t).view.read (Elt Ideal)
          (linear (V c main_arg0) (V c main_v63) (V c main_v66) (V c main_v67) (V c main_v68)) := by
  show (cfg1.win 5).cut (grid1.coords t) ((dat1 V c).after 5 t) = _
  rw [after1_5]
  unfold out1_5
  rw [View.canon_unit_zero lin_zeros2]
  simp only [View.ld_unit_zero (S := S5000x64) lin_zeros2, View.ld_unit_zero (S := S64x64) lin_zeros2,
    View.ld_unit_zero (S := S1x64) lin_zeros2]
  obtain ⟨a0, a1, b0, b1, c0, c1, d0, d1, f0, f1, g0, g1⟩ := lin_idx t
  have ht : t.val < 10 := t.isLt
  funext j
  obtain ⟨p, o, rfl⟩ : ∃ (p : Fin 5000) (o : Fin 64), j = ix2 p o := ⟨j 0, j 1, eq_ix2 j⟩
  have hp : p.val < 5000 := p.isLt
  have ho : o.val < 64 := o.isLt
  have hrow : t.val * 5000 + p.val < 50000 := by omega
  show k1_pay1 (iblk1 V c 0 t) (iblk1 V c 1 t) (iblk1 V c 2 t) (iblk1 V c 3 t) (iblk1 V c 4 t) (ix2 p o)
    = linear (V c main_arg0) (V c main_v63) (V c main_v66) (V c main_v67) (V c main_v68)
        (((cfg1.win 5).blk t).view.emb (ix2 p o))
  refine (lin_pay_eq_lrelu _ _ _ _ _ _).trans ?_
  refine (congrArg lrelu (lin_pre_apply _ _ _ _ _ p o)).trans ?_
  have h5 : ((cfg1.win 5).blk t).view.emb (ix2 p o) = ix2 (⟨t.val * 5000 + p.val, hrow⟩ : Fin 50000) o := by
    funext ax; apply Fin.ext
    match ax with
    | ⟨0, _⟩ => show win1_5.index t (0 : Fin 2) * 5000 + 1 * p.val = t.val * 5000 + p.val; omega
    | ⟨1, _⟩ => show win1_5.index t (1 : Fin 2) * 64 + 1 * o.val = o.val; omega
  rw [h5]
  show lrelu _ = linearAt (V c main_arg0) (V c main_v63) (V c main_v66) (V c main_v67) (V c main_v68)
    (⟨t.val * 5000 + p.val, hrow⟩ : Fin 50000) o
  unfold linearAt
  have h0 : ∀ k : Fin 64, iblk1 V c 0 t (ix2 p k) = V c main_arg0 (ix2 (⟨t.val * 5000 + p.val, hrow⟩ : Fin 50000) k) := fun k => by
    have hk : k.val < 64 := k.isLt
    show V c main_arg0 (((cfg1.win 0).blk t).view.emb (ix2 p k)) = V c main_arg0 _
    refine congrArg (V c main_arg0) ?_
    funext ax; apply Fin.ext
    match ax with
    | ⟨0, _⟩ => show win1_0.index t (0 : Fin 2) * 5000 + 1 * p.val = t.val * 5000 + p.val; omega
    | ⟨1, _⟩ => show win1_0.index t (1 : Fin 2) * 64 + 1 * k.val = k.val; omega
  have h1 : ∀ k : Fin 64, iblk1 V c 1 t (ix2 p k) = V c main_v63 (ix2 (⟨t.val * 5000 + p.val, hrow⟩ : Fin 50000) k) := fun k => by
    have hk : k.val < 64 := k.isLt
    show V c main_v63 (((cfg1.win 1).blk t).view.emb (ix2 p k)) = V c main_v63 _
    refine congrArg (V c main_v63) ?_
    funext ax; apply Fin.ext
    match ax with
    | ⟨0, _⟩ => show win1_1.index t (0 : Fin 2) * 5000 + 1 * p.val = t.val * 5000 + p.val; omega
    | ⟨1, _⟩ => show win1_1.index t (1 : Fin 2) * 64 + 1 * k.val = k.val; omega
  have h2 : ∀ k : Fin 64, iblk1 V c 2 t (ix2 k o) = V c main_v66 (ix2 k o) := fun k => by
    have hk : k.val < 64 := k.isLt
    show V c main_v66 (((cfg1.win 2).blk t).view.emb (ix2 k o)) = V c main_v66 _
    refine congrArg (V c main_v66) ?_
    funext ax; apply Fin.ext
    match ax with
    | ⟨0, _⟩ => show win1_2.index t (0 : Fin 2) * 64 + 1 * k.val = k.val; omega
    | ⟨1, _⟩ => show win1_2.index t (1 : Fin 2) * 64 + 1 * o.val = o.val; omega
  have h3 : ∀ k : Fin 64, iblk1 V c 3 t (ix2 k o) = V c main_v67 (ix2 k o) := fun k => by
    have hk : k.val < 64 := k.isLt
    show V c main_v67 (((cfg1.win 3).blk t).view.emb (ix2 k o)) = V c main_v67 _
    refine congrArg (V c main_v67) ?_
    funext ax; apply Fin.ext
    match ax with
    | ⟨0, _⟩ => show win1_3.index t (0 : Fin 2) * 64 + 1 * k.val = k.val; omega
    | ⟨1, _⟩ => show win1_3.index t (1 : Fin 2) * 64 + 1 * o.val = o.val; omega
  have h4 : iblk1 V c 4 t (ix2 (0 : Fin 1) o) = V c main_v68 (ix2 (0 : Fin 1) o) := by
    show V c main_v68 (((cfg1.win 4).blk t).view.emb (ix2 (0 : Fin 1) o)) = V c main_v68 _
    refine congrArg (V c main_v68) ?_
    funext ax; apply Fin.ext
    match ax with
    | ⟨0, _⟩ => show win1_4.index t (0 : Fin 2) * 1 + 1 * 0 = 0; omega
    | ⟨1, _⟩ => show win1_4.index t (1 : Fin 2) * 64 + 1 * o.val = o.val; omega
  refine congrArg lrelu ?_
  refine congrArg₂ (· + ·) (congrArg₂ (· + ·) (Finset.sum_congr rfl fun k _ => ?_) (Finset.sum_congr rfl fun k _ => ?_)) h4
  · rw [h0 k, h2 k]
  · rw [h1 k, h3 k]

/-- An index of the result array is in point t's block iff each coordinate is in the block's range on its axis. -/
theorem lin_mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v69).slice (win1_5.rect t)).set ↔ _
  rw [View.set_slice_whole, Rect.mem_set_unit]
  exact Iff.rfl

/-- Node n is in the block of point n / 5000: the 10 blocks of 5000 nodes tile the 50000 nodes. -/
theorem lin_cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hT : (i 0).val / 5000 < 10 := by omega
  obtain ⟨a0, a1, b0, b1, c0, c1, d0, d1, f0, f1, g0, g1⟩ := lin_idx ⟨(i 0).val / 5000, hT⟩
  have g0' : win1_5.index ⟨(i 0).val / 5000, hT⟩ (0 : Fin 2) = (i 0).val / 5000 := g0
  refine ⟨⟨(i 0).val / 5000, hT⟩, flush1_5 _, ?_⟩
  rw [lin_mem_blk]
  intro a
  match a with
  | ⟨0, _⟩ =>
    show win1_5.index ⟨(i 0).val / 5000, hT⟩ (0 : Fin 2) * 5000 ≤ (i 0).val
      ∧ (i 0).val < win1_5.index ⟨(i 0).val / 5000, hT⟩ (0 : Fin 2) * 5000 + 5000
    omega
  | ⟨1, _⟩ =>
    show win1_5.index ⟨(i 0).val / 5000, hT⟩ (1 : Fin 2) * 64 ≤ (i 1).val
      ∧ (i 1).val < win1_5.index ⟨(i 0).val / 5000, hT⟩ (1 : Fin 2) * 64 + 64
    omega

theorem region1 (V : (c : Dev nD) → (b : Ref sig .tc) → Buf (Elt Ideal) ((c : Thread nD τ).loc b)) (c : Dev nD) :
    (dat1 (F := Ideal) V c).arrAt 5 cfg1.N
      = linear (V c main_arg0) (V c main_v63) (V c main_v66) (V c main_v67) (V c main_v68) :=
  (dat1 (F := Ideal) V c).arrAt_eq_of_cover 5
    (linear (V c main_arg0) (V c main_v63) (V c main_v66) (V c main_v67) (V c main_v68))
    (fun t _ => lin_flushed V c t) lin_cover

end Cert.KernelIdeal.Val

end
-- ==== Proof.KernelHost.lean ====
/-
  The kernel program's host operations read back: the contents of the result array at the run's last boundary are
  the term `kterm` of the launch contents of the seven arguments — the stretches of host operations composed, the first
  grid's array through `region0`, the second's through `region1`.
-/
import proofs.«411877_j2413771620668_3_alg».proof.Proof.Gen.KernelIdeal.Frame
import proofs.«411877_j2413771620668_3_alg».proof.Proof.KTerm
import proofs.«411877_j2413771620668_3_alg».proof.Proof.Region0
import proofs.«411877_j2413771620668_3_alg».proof.Proof.Region1
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Region 0's entry: the nine stretches before the first grid, read from the launch contents

Each fact reads one buffer through all nine stretches at once: the operation that writes it gives its function at the
contents of its operands, every other operation leaves it; what is left is the KTerm stage, the typed references'
transports being along `rfl`. -/

/-- The gathered source rows (%49). -/
theorem W9_v49 (c : Dev nD) : (W9 (F := Ideal) m ρ c (Proc.devRef .tc main_v49) : FVec Ideal S802816x64 .f32)
    = xSrc (m ((c.tc : Thread nD τ).loc main_arg0)) (m ((c.tc : Thread nD τ).loc main_arg1)) := by
  show StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1
      (StableHlo.after hostOps0 (W0 m ρ c))))))))) (Proc.devRef .tc main_v49) = _
  after_results_simp
  rfl

/-- The gate logits (%42). -/
theorem W9_v42 (c : Dev nD) : (W9 (F := Ideal) m ρ c (Proc.devRef .tc main_v42) : FVec Ideal S802816 .f32)
    = logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1
      (StableHlo.after hostOps0 (W0 m ρ c))))))))) (Proc.devRef .tc main_v42) = _
  after_results_simp
  rfl

/-- The scatter ids (%6). -/
theorem W9_v6 (c : Dev nD) : (W9 (F := Ideal) m ρ c (Proc.devRef .tc main_v6) : IVec S802816 32)
    = segIds (m ((c.tc : Thread nD τ).loc main_arg2)) := by
  show StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1
      (StableHlo.after hostOps0 (W0 m ρ c))))))))) (Proc.devRef .tc main_v6) = _
  after_results_simp
  rfl

/-- No operation before the first grid writes an argument. -/
theorem W9_arg0 (c : Dev nD) : W9 (F := Ideal) m ρ c (Proc.devRef .tc main_arg0) = (m ((c.tc : Thread nD τ).loc main_arg0)) := by
  show StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1
      (StableHlo.after hostOps0 (W0 m ρ c))))))))) (Proc.devRef .tc main_arg0) = _
  after_results_simp
theorem W9_arg5 (c : Dev nD) : W9 (F := Ideal) m ρ c (Proc.devRef .tc main_arg5) = (m ((c.tc : Thread nD τ).loc main_arg5)) := by
  show StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1
      (StableHlo.after hostOps0 (W0 m ρ c))))))))) (Proc.devRef .tc main_arg5) = _
  after_results_simp
theorem W9_arg6 (c : Dev nD) : W9 (F := Ideal) m ρ c (Proc.devRef .tc main_arg6) = (m ((c.tc : Thread nD τ).loc main_arg6)) := by
  show StableHlo.after hostOps0_8 (StableHlo.after hostOps0_7 (StableHlo.after hostOps0_6 (StableHlo.after hostOps0_5
    (StableHlo.after hostOps0_4 (StableHlo.after hostOps0_3 (StableHlo.after hostOps0_2 (StableHlo.after hostOps0_1
      (StableHlo.after hostOps0 (W0 m ρ c))))))))) (Proc.devRef .tc main_arg6) = _
  after_results_simp

/-! ## Region 0's exit: the message array is the first grid's, every other buffer as entered -/

theorem W10_v50 (c : Dev nD) : (W10 (F := Ideal) m ρ c (Proc.devRef .tc main_v50) : FVec Ideal S802816x64 .bf16)
    = gated (xSrc (m ((c.tc : Thread nD τ).loc main_arg0)) (m ((c.tc : Thread nD τ).loc main_arg1))) (logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  ((W10_arr m ρ c 2).trans (region0 (V9 m ρ) c)).trans (congrArg₂ gated (W9_v49 m ρ c) (W9_v42 m ρ c))
theorem W10_v6 (c : Dev nD) : (W10 (F := Ideal) m ρ c (Proc.devRef .tc main_v6) : IVec S802816 32) = segIds (m ((c.tc : Thread nD τ).loc main_arg2)) :=
  (W10_of_ne m ρ c main_v6 (by decide)).trans (W9_v6 m ρ c)
theorem W10_arg0 (c : Dev nD) : W10 (F := Ideal) m ρ c (Proc.devRef .tc main_arg0) = (m ((c.tc : Thread nD τ).loc main_arg0)) :=
  (W10_of_ne m ρ c main_arg0 (by decide)).trans (W9_arg0 m ρ c)
theorem W10_arg5 (c : Dev nD) : W10 (F := Ideal) m ρ c (Proc.devRef .tc main_arg5) = (m ((c.tc : Thread nD τ).loc main_arg5)) :=
  (W10_of_ne m ρ c main_arg5 (by decide)).trans (W9_arg5 m ρ c)
theorem W10_arg6 (c : Dev nD) : W10 (F := Ideal) m ρ c (Proc.devRef .tc main_arg6) = (m ((c.tc : Thread nD τ).loc main_arg6)) :=
  (W10_of_ne m ρ c main_arg6 (by decide)).trans (W9_arg6 m ρ c)

/-! ## Region 1's entry: the stretch between the grids, from any contents `w` -/

section Between
variable (w : Valuation τ sig (Elt Ideal))

/-- The mean message per node (%63), of the message array and the scatter ids. -/
theorem between_v63 : (StableHlo.after hostOps1 w (Proc.devRef .tc main_v63) : FVec Ideal S50000x64 .f32)
    = agg (w (Proc.devRef .tc main_v50)) (w (Proc.devRef .tc main_v6)) := by
  after_results_simp
  rfl
/-- The two halves of the linear weight, transposed (%66, %67). -/
theorem between_v66 : (StableHlo.after hostOps1 w (Proc.devRef .tc main_v66) : FVec Ideal S64x64 .f32)
    = wxT (w (Proc.devRef .tc main_arg5)) := by
  after_results_simp
  rfl
theorem between_v67 : (StableHlo.after hostOps1 w (Proc.devRef .tc main_v67) : FVec Ideal S64x64 .f32)
    = waT (w (Proc.devRef .tc main_arg5)) := by
  after_results_simp
  rfl
/-- The bias as a one-row matrix (%68). -/
theorem between_v68 : (StableHlo.after hostOps1 w (Proc.devRef .tc main_v68) : FVec Ideal S1x64 .f32)
    = bRow (w (Proc.devRef .tc main_arg6)) := by
  after_results_simp
  rfl
theorem between_arg0 : StableHlo.after hostOps1 w (Proc.devRef .tc main_arg0) = w (Proc.devRef .tc main_arg0) := by
  after_results_simp

end Between

/-- The second grid's whole-array function, argument by argument. -/
theorem linear_congr {x x' a a' : FVec Ideal S50000x64 .f32} {wx wx' wa wa' : FVec Ideal S64x64 .f32} {b b' : FVec Ideal S1x64 .f32}
    (hx : x = x') (ha : a = a') (hwx : wx = wx') (hwa : wa = wa') (hb : b = b') :
    linear x a wx wa b = linear x' a' wx' wa' b' := by
  subst hx ha hwx hwa hb; rfl

/-! ## The result: the second grid's array at region 1's exit -/

theorem result (c : Dev nD) :
    W12 (F := Ideal) m ρ c (Proc.devRef .tc main_v69)
      = kterm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  (W12_arr m ρ c 5).trans ((region1 (V11 m ρ) c).trans (linear_congr
    ((between_arg0 (W10 m ρ c)).trans (W10_arg0 m ρ c))
    ((between_v63 (W10 m ρ c)).trans (congrArg₂ agg (W10_v50 m ρ c) (W10_v6 m ρ c)))
    ((between_v66 (W10 m ρ c)).trans (congrArg wxT (W10_arg5 m ρ c)))
    ((between_v67 (W10 m ρ c)).trans (congrArg waT (W10_arg5 m ρ c)))
    ((between_v68 (W10 m ρ c)).trans (congrArg bRow (W10_arg6 m ρ c)))))

end Cert.KernelIdeal.Val

end
-- ==== Proof.RTerm.lean ====
/-
  What the reference program computes, as ONE term of its seven arguments, written with the same whole-array
  operations the program applies.

  Per edge e (800000 of them):  logit e = Σ_k x[dst e, k] · w_dst[rel e, k] + Σ_k x[src e, k] · w_src[rel e, k]
  with w = Σ_j W_r[·,·,j] split in its two halves; the gate is 1 / (1 + exp (−logit)); the message is x[src e] scaled
  by the gate. Messages are summed per destination node and divided by max(count, 1); the result is
  leaky_relu ([x | agg] · W_linᵀ + b).
-/
import proofs.«411877_j2413771620668_3_alg».proof.ReferenceIdeal
import proofs.«411877_j2413771620668_3_alg».proof.Proof.Gen.ReferenceIdeal
import Idealize.ShloMosaic.PureOps.Ideal
import Idealize.ShloMosaic.Lib.ValueIdx

noncomputable section

namespace Cert.ReferenceIdeal.Val

open Idealize.ShloMosaic Idealize.ShloMosaic.ValueIdx Cert.ReferenceIdeal Cert.ReferenceIdeal.Gen

/-- Negative ids wrap once: `v < 0 ? v + n : v`, entry by entry. -/
def wrapped (n : BitVec 32) (v : IVec S800000 32) : IVec S800000 32 :=
  select (cmpi .slt v (broadcastInDim S800000 ![] bcast_S_S800000 (constantI S_ 32 0#32)))
    (addi v (broadcastInDim S800000 ![] bcast_S_S800000 (constantI S_ 32 n))) v

/-- A vector of ids as a one-column matrix. -/
def column (v : IVec S800000 32) : IVec S800000x1 32 := broadcastInDim S800000x1 ![0] bcast_S800000_S800000x1_0 v

/-- Σ_j W_r[r, k, j]. -/
def relSum (Wr : FVec Ideal S8x128x64 .f32) : FVec Ideal S8x128 .f32 :=
  Host.reduceAdd Wr (constant (F := Ideal) S_ .f32 0x00000000#32) reducesTo_S8x128x64_S8x128_d2 h_S_

def wDst (Wr : FVec Ideal S8x128x64 .f32) : FVec Ideal S8x64 .f32 := extractStridedSlice S8x64 ![0, 0] (relSum Wr) slices_S8x128_S8x64_0_0
def wSrc (Wr : FVec Ideal S8x128x64 .f32) : FVec Ideal S8x64 .f32 := extractStridedSlice S8x64 ![0, 64] (relSum Wr) slices_S8x128_S8x64_0_64

/-- x[ids e] for every edge. -/
def rowsOf (x : FVec Ideal S50000x64 .f32) (ids : IVec S800000 32) : FVec Ideal S800000x64 .f32 :=
  Host.gather gather_S50000x64_S800000x1_S800000x64_1_0_n_n_0_1_164 x (column (wrapped 50000#32 ids))

/-- w[rel e] for every edge. -/
def relRows (w : FVec Ideal S8x64 .f32) (rel : IVec S800000 32) : FVec Ideal S800000x64 .f32 :=
  Host.gather gather_S8x64_S800000x1_S800000x64_1_0_n_n_0_1_164 w (column (wrapped 8#32 rel))

/-- Σ_k a[e, k] · b[e, k]. -/
def rowDot (a b : FVec Ideal S800000x64 .f32) : FVec Ideal S800000 .f32 :=
  Host.reduceAdd (mulf a b) (constant (F := Ideal) S_ .f32 0x00000000#32) reducesTo_S800000x64_S800000_d1 h_S_

/-- The gate logit of every edge. -/
def logit (x : FVec Ideal S50000x64 .f32) (src dst rel : IVec S800000 32) (Wr : FVec Ideal S8x128x64 .f32) : FVec Ideal S800000 .f32 :=
  addf (rowDot (rowsOf x dst) (relRows (wDst Wr) rel)) (rowDot (rowsOf x src) (relRows (wSrc Wr) rel))

/-- 1 / (1 + exp (−z)), entry by entry. -/
def sigmoid (z : FVec Ideal S800000 .f32) : FVec Ideal S800000 .f32 :=
  Host.divf (broadcastInDim S800000 ![] bcast_S_S800000 (constant (F := Ideal) S_ .f32 0x3F800000#32))
    (addf (broadcastInDim S800000 ![] bcast_S_S800000 (constant (F := Ideal) S_ .f32 0x3F800000#32)) (Host.exp (Host.negf z)))

/-- The messages: row e is x[src e] times edge e's gate. -/
def msg (x : FVec Ideal S50000x64 .f32) (src : IVec S800000 32) (gate : FVec Ideal S800000 .f32) : FVec Ideal S800000x64 .f32 :=
  mulf (rowsOf x src)
    (broadcastInDim S800000x64 ![0, 1] bcast_S800000x1_S800000x64_0_1 (broadcastInDim S800000x1 ![0] bcast_S800000_S800000x1_0 gate))

/-- Per-node sum of the messages. -/
def msgSum (m : FVec Ideal S800000x64 .f32) (ids : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32)) (column ids) m

/-- Per-node count of incoming edges. -/
def cnt (ids : IVec S800000 32) : FVec Ideal S50000 .f32 :=
  Host.scatterAdd scatter_S50000_S800000x1_S800000_n_0_0_1
    (broadcastInDim S50000 ![] bcast_S_S50000 (constant (F := Ideal) S_ .f32 0x00000000#32))
    (column ids) (broadcastInDim S800000 ![] bcast_S_S800000 (constant (F := Ideal) S_ .f32 0x3F800000#32))

/-- The mean message per node: sum / max(count, 1). -/
def agg (m : FVec Ideal S800000x64 .f32) (ids : IVec S800000 32) : FVec Ideal S50000x64 .f32 :=
  Host.divf (msgSum m ids)
    (broadcastInDim S50000x64 ![0, 1] bcast_S50000x1_S50000x64_0_1
      (broadcastInDim S50000x1 ![0] bcast_S50000_S50000x1_0
        (maximumf (cnt ids) (broadcastInDim S50000 ![] bcast_S_S50000 (constant (F := Ideal) S_ .f32 0x3F800000#32)))))

/-- [x | a] · W_linᵀ + b. -/
def affine (x a : FVec Ideal S50000x64 .f32) (Wl : FVec Ideal S64x128 .f32) (b : FVec Ideal S64 .f32) : FVec Ideal S50000x64 .f32 :=
  addf
    (Host.dotGeneral dot_S50000x128_S128x64_S50000x64_1_0_0_1_n_n none
      (concatenate S50000x128 1 [⟨S50000x64, x⟩, ⟨S50000x64, a⟩] concatenates_S50000x64_S50000x64_S50000x128_d1)
      (transpose S128x64 [1, 0] Wl transposes_S64x128_S128x64_1_0))
    (broadcastInDim S50000x64 ![0, 1] bcast_S1x64_S50000x64_0_1 (broadcastInDim S1x64 ![1] bcast_S64_S1x64_1 b))

/-- leaky_relu with slope f32(0.01), entry by entry. -/
def leaky (z : FVec Ideal S50000x64 .f32) : FVec Ideal S50000x64 .f32 :=
  select (cmpf .oge z (broadcastInDim S50000x64 ![] bcast_S_S50000x64 (constant (F := Ideal) S_ .f32 0x00000000#32)))
    z (mulf (broadcastInDim S50000x64 ![] bcast_S_S50000x64 (id (constant (F := Ideal) S_ .f32 0x3C23D70A#32))) z)

/-- The reference program's result array, of its arguments. -/
def rterm (x : FVec Ideal S50000x64 .f32) (src dst rel : IVec S800000 32) (Wr : FVec Ideal S8x128x64 .f32)
    (Wl : FVec Ideal S64x128 .f32) (b : FVec Ideal S64 .f32) : FVec Ideal S50000x64 .f32 :=
  leaky (affine x (agg (msg x src (sigmoid (logit x src dst rel Wr))) dst) Wl b)

end Cert.ReferenceIdeal.Val

end
-- ==== Proof.RefRun.lean ====
/-
  The reference program's run: every weakly fair execution terminates with the result array at the term `rterm` of the
  launch contents of the seven arguments, and the arguments unchanged — its 92 host operations (the callees' listed
  at their call site) composed.
-/
import proofs.«411877_j2413771620668_3_alg».proof.Proof.Gen.ReferenceIdeal
import proofs.«411877_j2413771620668_3_alg».proof.Proof.RTerm
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem

section Line

variable {F : FTy → Type} [FloatOps F]

/-- The program's operations up to the mean message per node (%63), in order: @main's first eighty-three. -/
abbrev opsA : List (HloOp τ sig (Elt F)) :=
  [ StableHlo.nullary main_cst (constant S_ .f32 0x00000000#32),
    StableHlo.binary main_arg4 main_cst main_v0 ((fun x v => Host.reduceAdd x v reducesTo_S8x128x64_S8x128_d2 h_S_) : (⟨S8x128x64, .f32⟩ : BufTy).Contents (Elt F) → (⟨S_, .f32⟩ : BufTy).Contents (Elt F) → (⟨S8x128, .f32⟩ : BufTy).Contents (Elt F)),
    StableHlo.unary main_v0 main_v1 ((extractStridedSlice S8x64 ![0, 0] · slices_S8x128_S8x64_0_0) : (⟨S8x128, .f32⟩ : BufTy).Contents (Elt F) → (⟨S8x64, .f32⟩ : BufTy).Contents (Elt F)),
    StableHlo.unary main_v0 main_v2 ((extractStridedSlice S8x64 ![0, 64] · slices_S8x128_S8x64_0_64) : (⟨S8x128, .f32⟩ : BufTy).Contents (Elt F) → (⟨S8x64, .f32⟩ : BufTy).Contents (Elt F)),
    StableHlo.nullary main_c (constantI S_ 32 0#32),
    StableHlo.unary main_c main_v3 (broadcastInDim S800000 ![] bcast_S_S800000 : (⟨S_, .i32⟩ : BufTy).Contents (Elt F) → (⟨S800000, .i32⟩ : BufTy).Contents (Elt F)),
    StableHlo.binary main_arg2 main_v3 main_v4 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v5 (broadcastInDim S800000 ![] bcast_S_S800000 : (⟨S_, .i32⟩ : BufTy).Contents (Elt F) → (⟨S800000, .i32⟩ : BufTy).Contents (Elt F)),
    StableHlo.binary main_arg2 main_v5 main_v6 (addi : (⟨S800000, .i32⟩ : BufTy).Contents (Elt F) → (⟨S800000, .i32⟩ : BufTy).Contents (Elt F) → (⟨S800000, .i32⟩ : BufTy).Contents (Elt F)),
    StableHlo.ternary main_v4 main_v6 main_arg2 main_v7 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v7 main_v8 (broadcastInDim S800000x1 ![0] bcast_S800000_S800000x1_0 : (⟨S800000, .i32⟩ : BufTy).Contents (Elt F) → (⟨S800000x1, .i32⟩ : BufTy).Contents (Elt F)),
    StableHlo.binary main_arg0 main_v8 main_v9 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v10 (broadcastInDim S800000 ![] bcast_S_S800000 : (⟨S_, .i32⟩ : BufTy).Contents (Elt F) → (⟨S800000, .i32⟩ : BufTy).Contents (Elt F)),
    StableHlo.binary main_arg3 main_v10 main_v11 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 8#32),
    StableHlo.unary main_c_2 main_v12 (broadcastInDim S800000 ![] bcast_S_S800000 : (⟨S_, .i32⟩ : BufTy).Contents (Elt F) → (⟨S800000, .i32⟩ : BufTy).Contents (Elt F)),
    StableHlo.binary main_arg3 main_v12 main_v13 (addi : (⟨S800000, .i32⟩ : BufTy).Contents (Elt F) → (⟨S800000, .i32⟩ : BufTy).Contents (Elt F) → (⟨S800000, .i32⟩ : BufTy).Contents (Elt F)),
    StableHlo.ternary main_v11 main_v13 main_arg3 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v14 main_v15 (broadcastInDim S800000x1 ![0] bcast_S800000_S800000x1_0 : (⟨S800000, .i32⟩ : BufTy).Contents (Elt F) → (⟨S800000x1, .i32⟩ : BufTy).Contents (Elt F)),
    StableHlo.binary main_v1 main_v15 main_v16 ((fun x i => Host.gather gather_S8x64_S800000x1_S800000x64_1_0_n_n_0_1_164 x i) : (⟨S8x64, .f32⟩ : BufTy).Contents (Elt F) → (⟨S800000x1, .i32⟩ : BufTy).Contents (Elt F) → (⟨S800000x64, .f32⟩ : BufTy).Contents (Elt F)),
    StableHlo.binary main_v9 main_v16 main_v17 (mulf : (⟨S800000x64, .f32⟩ : BufTy).Contents (Elt F) → (⟨S800000x64, .f32⟩ : BufTy).Contents (Elt F) → (⟨S800000x64, .f32⟩ : BufTy).Contents (Elt F)),
    StableHlo.nullary main_cst_3 (constant S_ .f32 0x00000000#32),
    StableHlo.binary main_v17 main_cst_3 main_v18 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    StableHlo.nullary main_c_4 (constantI S_ 32 0#32),
    StableHlo.unary main_c_4 main_v19 (broadcastInDim S800000 ![] bcast_S_S800000 : (⟨S_, .i32⟩ : BufTy).Contents (Elt F) → (⟨S800000, .i32⟩ : BufTy).Contents (Elt F)),
    StableHlo.binary main_arg1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v21 (broadcastInDim S800000 ![] bcast_S_S800000 : (⟨S_, .i32⟩ : BufTy).Contents (Elt F) → (⟨S800000, .i32⟩ : BufTy).Contents (Elt F)),
    StableHlo.binary main_arg1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_arg1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_arg0 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_6 (constantI S_ 32 0#32),
    StableHlo.unary main_c_6 main_v26 (broadcastInDim S800000 ![] bcast_S_S800000 : (⟨S_, .i32⟩ : BufTy).Contents (Elt F) → (⟨S800000, .i32⟩ : BufTy).Contents (Elt F)),
    StableHlo.binary main_arg3 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 8#32),
    StableHlo.unary main_c_7 main_v28 (broadcastInDim S800000 ![] bcast_S_S800000 : (⟨S_, .i32⟩ : BufTy).Contents (Elt F) → (⟨S800000, .i32⟩ : BufTy).Contents (Elt F)),
    StableHlo.binary main_arg3 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_arg3 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_v2 main_v31 main_v32 ((fun x i => Host.gather gather_S8x64_S800000x1_S800000x64_1_0_n_n_0_1_164 x i) : (⟨S8x64, .f32⟩ : BufTy).Contents (Elt F) → (⟨S800000x1, .i32⟩ : BufTy).Contents (Elt F) → (⟨S800000x64, .f32⟩ : BufTy).Contents (Elt F)),
    StableHlo.binary main_v25 main_v32 main_v33 (mulf : (⟨S800000x64, .f32⟩ : BufTy).Contents (Elt F) → (⟨S800000x64, .f32⟩ : BufTy).Contents (Elt F) → (⟨S800000x64, .f32⟩ : BufTy).Contents (Elt F)),
    StableHlo.nullary main_cst_8 (constant S_ .f32 0x00000000#32),
    StableHlo.binary main_v33 main_cst_8 main_v34 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    StableHlo.binary main_v18 main_v34 main_v35 (addf : (⟨S800000, .f32⟩ : BufTy).Contents (Elt F) → (⟨S800000, .f32⟩ : BufTy).Contents (Elt F) → (⟨S800000, .f32⟩ : BufTy).Contents (Elt F)),
    StableHlo.unary main_v35 main_v36 (Host.negf : (⟨S800000, .f32⟩ : BufTy).Contents (Elt F) → (⟨S800000, .f32⟩ : BufTy).Contents (Elt F)),
    StableHlo.unary main_v36 main_v37 (Host.exp : (⟨S800000, .f32⟩ : BufTy).Contents (Elt F) → (⟨S800000, .f32⟩ : BufTy).Contents (Elt F)),
    StableHlo.nullary main_cst_9 (constant S_ .f32 0x3F800000#32),
    StableHlo.unary main_cst_9 main_v38 (broadcastInDim S800000 ![] bcast_S_S800000 : (⟨S_, .f32⟩ : BufTy).Contents (Elt F) → (⟨S800000, .f32⟩ : BufTy).Contents (Elt F)),
    StableHlo.binary main_v38 main_v37 main_v39 (addf : (⟨S800000, .f32⟩ : BufTy).Contents (Elt F) → (⟨S800000, .f32⟩ : BufTy).Contents (Elt F) → (⟨S800000, .f32⟩ : BufTy).Contents (Elt F)),
    StableHlo.nullary main_cst_10 (constant S_ .f32 0x3F800000#32),
    StableHlo.unary main_cst_10 main_v40 (broadcastInDim S800000 ![] bcast_S_S800000 : (⟨S_, .f32⟩ : BufTy).Contents (Elt F) → (⟨S800000, .f32⟩ : BufTy).Contents (Elt F)),
    StableHlo.binary main_v40 main_v39 main_v41 (Host.divf : (⟨S800000, .f32⟩ : BufTy).Contents (Elt F) → (⟨S800000, .f32⟩ : BufTy).Contents (Elt F) → (⟨S800000, .f32⟩ : BufTy).Contents (Elt F)),
    StableHlo.unary main_v41 main_v42 (broadcastInDim S800000x1 ![0] bcast_S800000_S800000x1_0 : (⟨S800000, .f32⟩ : BufTy).Contents (Elt F) → (⟨S800000x1, .f32⟩ : BufTy).Contents (Elt F)),
    StableHlo.nullary main_c_11 (constantI S_ 32 0#32),
    StableHlo.unary main_c_11 main_v43 (broadcastInDim S800000 ![] bcast_S_S800000 : (⟨S_, .i32⟩ : BufTy).Contents (Elt F) → (⟨S800000, .i32⟩ : BufTy).Contents (Elt F)),
    StableHlo.binary main_arg1 main_v43 main_v44 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v45 (broadcastInDim S800000 ![] bcast_S_S800000 : (⟨S_, .i32⟩ : BufTy).Contents (Elt F) → (⟨S800000, .i32⟩ : BufTy).Contents (Elt F)),
    StableHlo.binary main_arg1 main_v45 main_v46 (addi : (⟨S800000, .i32⟩ : BufTy).Contents (Elt F) → (⟨S800000, .i32⟩ : BufTy).Contents (Elt F) → (⟨S800000, .i32⟩ : BufTy).Contents (Elt F)),
    StableHlo.ternary main_v44 main_v46 main_arg1 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v47 main_v48 (broadcastInDim S800000x1 ![0] bcast_S800000_S800000x1_0 : (⟨S800000, .i32⟩ : BufTy).Contents (Elt F) → (⟨S800000x1, .i32⟩ : BufTy).Contents (Elt F)),
    StableHlo.binary main_arg0 main_v48 main_v49 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v42 main_v50 (broadcastInDim S800000x64 ![0, 1] bcast_S800000x1_S800000x64_0_1 : (⟨S800000x1, .f32⟩ : BufTy).Contents (Elt F) → (⟨S800000x64, .f32⟩ : BufTy).Contents (Elt F)),
    StableHlo.binary main_v49 main_v50 main_v51 (mulf : (⟨S800000x64, .f32⟩ : BufTy).Contents (Elt F) → (⟨S800000x64, .f32⟩ : BufTy).Contents (Elt F) → (⟨S800000x64, .f32⟩ : BufTy).Contents (Elt F)),
    StableHlo.nullary main_cst_13 (constant S_ .f32 0x00000000#32),
    StableHlo.unary main_cst_13 main_v52 (broadcastInDim S50000x64 ![] bcast_S_S50000x64 : (⟨S_, .f32⟩ : BufTy).Contents (Elt F) → (⟨S50000x64, .f32⟩ : BufTy).Contents (Elt F)),
    StableHlo.unary main_arg2 main_v53 (broadcastInDim S800000x1 ![0] bcast_S800000_S800000x1_0 : (⟨S800000, .i32⟩ : BufTy).Contents (Elt F) → (⟨S800000x1, .i32⟩ : BufTy).Contents (Elt F)),
    StableHlo.ternary main_v52 main_v53 main_v51 main_v54 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_14 (constant S_ .f32 0x3F800000#32),
    StableHlo.unary main_cst_14 main_v55 (broadcastInDim S800000 ![] bcast_S_S800000 : (⟨S_, .f32⟩ : BufTy).Contents (Elt F) → (⟨S800000, .f32⟩ : BufTy).Contents (Elt F)),
    StableHlo.nullary main_cst_15 (constant S_ .f32 0x00000000#32),
    StableHlo.unary main_cst_15 main_v56 (broadcastInDim S50000 ![] bcast_S_S50000 : (⟨S_, .f32⟩ : BufTy).Contents (Elt F) → (⟨S50000, .f32⟩ : BufTy).Contents (Elt F)),
    StableHlo.unary main_arg2 main_v57 (broadcastInDim S800000x1 ![0] bcast_S800000_S800000x1_0 : (⟨S800000, .i32⟩ : BufTy).Contents (Elt F) → (⟨S800000x1, .i32⟩ : BufTy).Contents (Elt F)),
    StableHlo.ternary main_v56 main_v57 main_v55 main_v58 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_16 (constant S_ .f32 0x3F800000#32),
    StableHlo.unary main_cst_16 main_v59 (broadcastInDim S50000 ![] bcast_S_S50000 : (⟨S_, .f32⟩ : BufTy).Contents (Elt F) → (⟨S50000, .f32⟩ : BufTy).Contents (Elt F)),
    StableHlo.binary main_v58 main_v59 main_v60 (maximumf : (⟨S50000, .f32⟩ : BufTy).Contents (Elt F) → (⟨S50000, .f32⟩ : BufTy).Contents (Elt F) → (⟨S50000, .f32⟩ : BufTy).Contents (Elt F)),
    StableHlo.unary main_v60 main_v61 (broadcastInDim S50000x1 ![0] bcast_S50000_S50000x1_0 : (⟨S50000, .f32⟩ : BufTy).Contents (Elt F) → (⟨S50000x1, .f32⟩ : BufTy).Contents (Elt F)),
    StableHlo.unary main_v61 main_v62 (broadcastInDim S50000x64 ![0, 1] bcast_S50000x1_S50000x64_0_1 : (⟨S50000x1, .f32⟩ : BufTy).Contents (Elt F) → (⟨S50000x64, .f32⟩ : BufTy).Contents (Elt F)),
    StableHlo.binary main_v54 main_v62 main_v63 (Host.divf : (⟨S50000x64, .f32⟩ : BufTy).Contents (Elt F) → (⟨S50000x64, .f32⟩ : BufTy).Contents (Elt F) → (⟨S50000x64, .f32⟩ : BufTy).Contents (Elt F)) ]

/-- The rest, in order: @main's last seven (the concatenation, the product with the transposed weights, the bias, the
    slope), then at its one call the six operations of @leaky_relu and, at the call inside it, the select of @_where,
    each over the call's own buffers. -/
abbrev opsB : List (HloOp τ sig (Elt F)) :=
  [ StableHlo.binary main_arg0 main_v63 main_v64 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    StableHlo.unary main_arg5 main_v65 ((transpose S128x64 [1, 0] · transposes_S64x128_S128x64_1_0) : (⟨S64x128, .f32⟩ : BufTy).Contents (Elt F) → (⟨S128x64, .f32⟩ : BufTy).Contents (Elt F)),
    StableHlo.binary main_v64 main_v65 main_v66 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg6 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),
    StableHlo.binary main_v66 main_v68 main_v69 (addf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3C23D70A#32),
    StableHlo.TRef.nullary main_call0.cst (constant S_ .f32 0x00000000#32),
    StableHlo.TRef.unary main_call0.cst main_call0.v0 (broadcastInDim S50000x64 ![] bcast_S_S50000x64),
    StableHlo.TRef.binary (.of main_v69 : StableHlo.TRef sig ⟨S50000x64, .f32⟩) main_call0.v0 main_call0.v1 (cmpf .oge),
    StableHlo.TRef.unary (.of main_cst_17 : StableHlo.TRef sig ⟨S_, .f32⟩) main_call0.v2 id,
    StableHlo.TRef.unary main_call0.v2 main_call0.v3 (broadcastInDim S50000x64 ![] bcast_S_S50000x64),
    StableHlo.TRef.binary main_call0.v3 (.of main_v69 : StableHlo.TRef sig ⟨S50000x64, .f32⟩) main_call0.v4 mulf,
    StableHlo.TRef.ternary main_call0.v1 (.of main_v69 : StableHlo.TRef sig ⟨S50000x64, .f32⟩) main_call0.v4 main_call0_call0.v0 select ]

/-- The program's 97 operations, in order. -/
abbrev ops : List (HloOp τ sig (Elt F)) := opsA ++ opsB

set_option maxRecDepth 8192 in
set_option maxHeartbeats 4000000 in
/-- @main is that straight line: its two windows in order, the callees' bodies at their call sites. -/
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub ..,
    StableHlo.unary_bufs_sub .., StableHlo.binary_bufs_sub .., StableHlo.binary_bufs_sub .., StableHlo.nullary_bufs_sub ..,
    StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub ..,
    StableHlo.nullary_bufs_sub .., StableHlo.binary_bufs_sub .., StableHlo.binary_bufs_sub .., StableHlo.unary_bufs_sub ..,
    StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.unary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub ..,
    StableHlo.unary_bufs_sub .., StableHlo.nullary_bufs_sub .., StableHlo.unary_bufs_sub .., StableHlo.unary_bufs_sub ..,
    StableHlo.ternary_bufs_sub .., StableHlo.nullary_bufs_sub .., StableHlo.unary_bufs_sub .., StableHlo.binary_bufs_sub ..,
    StableHlo.unary_bufs_sub .., StableHlo.unary_bufs_sub .., StableHlo.binary_bufs_sub ..⟩

theorem opsB_sub : (opsB : List (HloOp τ sig (Elt F))).Forall fun op => op.bufs ⊆ StableHlo.tcRefs τ sig :=
  ⟨StableHlo.binary_bufs_sub .., StableHlo.unary_bufs_sub .., StableHlo.binary_bufs_sub .., StableHlo.unary_bufs_sub ..,
    StableHlo.unary_bufs_sub .., StableHlo.binary_bufs_sub .., StableHlo.nullary_bufs_sub .., StableHlo.nullary_bufs_sub ..,
    StableHlo.unary_bufs_sub .., StableHlo.binary_bufs_sub .., StableHlo.unary_bufs_sub .., StableHlo.unary_bufs_sub ..,
    StableHlo.binary_bufs_sub .., StableHlo.ternary_bufs_sub ..⟩

theorem ops_sub : (ops : List (HloOp τ sig (Elt F))).Forall fun op => op.bufs ⊆ StableHlo.tcRefs τ sig :=
  List.forall_append.mpr ⟨opsA_sub, opsB_sub⟩

/-- The whole line's contents are the second part's over the first part's. -/
theorem after_ops (V : Valuation τ sig (Elt F)) : StableHlo.after ops V = StableHlo.after opsB (StableHlo.after opsA V) := rfl

/-! No operation writes an argument's buffer: each argument ends as launched. -/

theorem ops_main_arg0 (V : Valuation τ sig (Elt F)) : StableHlo.after ops V (Proc.devRef .tc main_arg0) = V (Proc.devRef .tc main_arg0) :=
  StableHlo.after_of_forall_not_mem _ _ (List.forall_iff_forall_mem.mp (by
    simp only [ops, opsA, opsB, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem ops_main_arg1 (V : Valuation τ sig (Elt F)) : StableHlo.after ops V (Proc.devRef .tc main_arg1) = V (Proc.devRef .tc main_arg1) :=
  StableHlo.after_of_forall_not_mem _ _ (List.forall_iff_forall_mem.mp (by
    simp only [ops, opsA, opsB, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem ops_main_arg2 (V : Valuation τ sig (Elt F)) : StableHlo.after ops V (Proc.devRef .tc main_arg2) = V (Proc.devRef .tc main_arg2) :=
  StableHlo.after_of_forall_not_mem _ _ (List.forall_iff_forall_mem.mp (by
    simp only [ops, opsA, opsB, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem ops_main_arg3 (V : Valuation τ sig (Elt F)) : StableHlo.after ops V (Proc.devRef .tc main_arg3) = V (Proc.devRef .tc main_arg3) :=
  StableHlo.after_of_forall_not_mem _ _ (List.forall_iff_forall_mem.mp (by
    simp only [ops, opsA, opsB, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem ops_main_arg4 (V : Valuation τ sig (Elt F)) : StableHlo.after ops V (Proc.devRef .tc main_arg4) = V (Proc.devRef .tc main_arg4) :=
  StableHlo.after_of_forall_not_mem _ _ (List.forall_iff_forall_mem.mp (by
    simp only [ops, opsA, opsB, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem ops_main_arg5 (V : Valuation τ sig (Elt F)) : StableHlo.after ops V (Proc.devRef .tc main_arg5) = V (Proc.devRef .tc main_arg5) :=
  StableHlo.after_of_forall_not_mem _ _ (List.forall_iff_forall_mem.mp (by
    simp only [ops, opsA, opsB, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem ops_main_arg6 (V : Valuation τ sig (Elt F)) : StableHlo.after ops V (Proc.devRef .tc main_arg6) = V (Proc.devRef .tc main_arg6) :=
  StableHlo.after_of_forall_not_mem _ _ (List.forall_iff_forall_mem.mp (by
    simp only [ops, opsA, opsB, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem opsA_main_arg0 (V : Valuation τ sig (Elt F)) : StableHlo.after opsA V (Proc.devRef .tc main_arg0) = V (Proc.devRef .tc main_arg0) :=
  StableHlo.after_of_forall_not_mem _ _ (List.forall_iff_forall_mem.mp (by
    simp only [opsA, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem opsA_main_arg5 (V : Valuation τ sig (Elt F)) : StableHlo.after opsA V (Proc.devRef .tc main_arg5) = V (Proc.devRef .tc main_arg5) :=
  StableHlo.after_of_forall_not_mem _ _ (List.forall_iff_forall_mem.mp (by
    simp only [opsA, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))
theorem opsA_main_arg6 (V : Valuation τ sig (Elt F)) : StableHlo.after opsA V (Proc.devRef .tc main_arg6) = V (Proc.devRef .tc main_arg6) :=
  StableHlo.after_of_forall_not_mem _ _ (List.forall_iff_forall_mem.mp (by
    simp only [opsA, List.cons_append, List.nil_append, List.Forall, StableHlo.nullary_writes, StableHlo.unary_writes,
      StableHlo.binary_writes, StableHlo.ternary_writes, Finset.mem_singleton]
    repeat' apply And.intro
    all_goals exact StableHlo.devRef_ne_of_ne (by decide)))

end Line

/-! The result, read back at the ideal instance: the mean message after the first part, the rest over it. -/

set_option maxRecDepth 8192 in
set_option maxHeartbeats 40000000 in
/-- After the first part the buffer of %63 holds the mean message per node, of the arguments. -/
theorem opsA_v63 (V : Valuation τ sig (Elt Ideal)) :
    StableHlo.after (opsA (F := Ideal)) V (Proc.devRef .tc main_v63)
      = agg (msg (V (Proc.devRef .tc main_arg0)) (V (Proc.devRef .tc main_arg1)) (sigmoid (logit (V (Proc.devRef .tc main_arg0)) (V (Proc.devRef .tc main_arg1)) (V (Proc.devRef .tc main_arg2)) (V (Proc.devRef .tc main_arg3)) (V (Proc.devRef .tc main_arg4))))) (V (Proc.devRef .tc main_arg2)) := by
  after_results_simp
  rfl

set_option maxRecDepth 8192 in
set_option maxHeartbeats 4000000 in
/-- The second part takes the node features, the mean message, the weights and the bias to the result. -/
theorem opsB_v70 (W : Valuation τ sig (Elt Ideal)) :
    StableHlo.after (opsB (F := Ideal)) W (Proc.devRef .tc main_v70)
      = leaky (affine (W (Proc.devRef .tc main_arg0)) (W (Proc.devRef .tc main_v63)) (W (Proc.devRef .tc main_arg5)) (W (Proc.devRef .tc main_arg6))) := by
  after_results
  rfl

/-- The whole line leaves the reference term of the arguments in the result's buffer. -/
theorem ops_v70 (V : Valuation τ sig (Elt Ideal)) :
    StableHlo.after (ops (F := Ideal)) V (Proc.devRef .tc main_v70)
      = rterm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]
  refine (opsB_v70 _).trans ?_
  rw [opsA_v63, opsA_main_arg0, opsA_main_arg5, opsA_main_arg6]
  rfl

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v70) = rterm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) := by
  exact
    (θ_run defs _ _).mono (fun _ h c => ⟨(h c main_v70).trans (ops_v70 _),
        (h c main_arg0).trans (ops_main_arg0 _),
        (h c main_arg1).trans (ops_main_arg1 _),
        (h c main_arg2).trans (ops_main_arg2 _),
        (h c main_arg3).trans (ops_main_arg3 _),
        (h c main_arg4).trans (ops_main_arg4 _),
        (h c main_arg5).trans (ops_main_arg5 _),
        (h c main_arg6).trans (ops_main_arg6 _)⟩)
      (StableHlo.run_seq scopedRefs_eq scopedSems_eq defs main (fun _ => ops) main_eq (fun _ => ops_sub) m ρ)

end Cert.ReferenceIdeal.Val

end
-- ==== Proof.LibGather2.lean ====
/-
  Two readings of stablehlo.gather at an index, for any extents.

  `gather_rows`: whole rows of a rank-2 table [N, C] taken at an [E, 1] column of start ids (what `table[ids]` lowers
  to): entry (e, c) of the result is the table at row clamp(ids e) and column c, where the id is read as a signed
  word and clamped into [0, N − 1].
  `gather_pairs`: single entries of a rank-2 table [N, R] taken at an [E, 2] matrix of (row, column) ids (what
  `table[i, j]` lowers to): entry e of the result is the table at (clamp(i e), clamp(j e)), each id clamped into
  its own axis.
-/
import Idealize.ShloMosaic.PureOps.ShapeOps
import Idealize.ShloMosaic.PureOps.Dims
import Idealize.ShloMosaic.Lib.ValueIdx

namespace IndexOpsLib

open Idealize.ShloMosaic Idealize.ShloMosaic.ValueIdx

/-- A start id read signed and clamped into [0, N − 1]. -/
def clampRow (N : Nat) (hN : 0 < N) {w : Nat} (v : BitVec w) : Fin N := ⟨min v.toInt.toNat (N - 1), by omega⟩

theorem gather_rows {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c) = x (ix2 (clampRow N hN (idx (ix2 e (0 : Fin 1)))) c) := by
  -- a batch axis of the result is not its offset axis 1, so it is axis 0, where the index holds e
  have hbatch : ∀ X : Fin 2, X ∈ d.batchDims → ((ix2 e c : (⟨2, ![E, C]⟩ : Shape).Idx) X).val = e.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  -- an offset axis of the result is axis 1, where the index holds c
  have hoffs : ∀ X : Fin 2, X ∈ d.offsetDims → ((ix2 e c : (⟨2, ![E, C]⟩ : Shape).Idx) X).val = c.val := by
    intro X hX
    rw [hoff] at hX
    have hX1 : X = 1 := List.mem_singleton.mp hX
    subst hX1; rfl
  have hb : ∀ a : Fin 2, a ∉ d.operandBatchingDims := fun a => by rw [hob]; exact List.not_mem_nil
  -- operand axis 0: collapsed and start-indexed, the clamped id
  have h0 : (d.operandIdx (ix2 e c) idx (0 : Fin 2)).val = (clampRow N hN (idx (ix2 e (0 : Fin 1)))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp
  -- operand axis 1: an offset axis with no start index, the result's column
  have h1 : (d.operandIdx (ix2 e c) idx (1 : Fin 2)).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

theorem gather_pairs {α : Type} {N R E w : Nat} (hN : 0 < N) (hR : 0 < R)
    (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1)
    (x : (⟨2, ![N, R]⟩ : Shape).Idx → α) (idx : IVec ⟨2, ![E, 2]⟩ w) (e : Fin E) :
    Host.gather d x idx (ix1 e)
      = x (ix2 (clampRow N hN (idx (ix2 e (0 : Fin 2)))) (clampRow R hR (idx (ix2 e (1 : Fin 2))))) := by
  -- the result's one axis holds e
  have hj : ∀ X : Fin 1, ((ix1 e : (⟨1, ![E]⟩ : Shape).Idx) X).val = e.val := fun X => by
    have hX : X = 0 := Subsingleton.elim _ _
    subst hX; rfl
  have hb : ∀ a : Fin 2, a ∉ d.operandBatchingDims := fun a => by rw [hob]; exact List.not_mem_nil
  -- both operand axes are collapsed, so neither is kept
  have hc : ∀ a : Fin 2, a ∈ d.collapsedSliceDims := fun a => by
    rw [hcoll]
    match a with
    | ⟨0, _⟩ => exact List.mem_cons_self
    | ⟨1, _⟩ => exact List.mem_cons_of_mem _ (List.mem_singleton.mpr rfl)
  have hk : ∀ a : Fin 2, a ∉ d.sKept := fun a h => ((d.mem_sKept a).1 h).1 (hc a)
  have hsl : ∀ a : Fin 2, d.sliceSizes a = 1 := fun a => d.slice_collapsed a (hc a)
  -- component k of the start index of result entry e is read at (e, k)
  have hsi : ∀ (n : Nat) (hn : n < d.startIndexMap.length) (k : Fin 2), n = k.val →
      d.siIdx (ix1 e) ⟨n, hn⟩ = ix2 e k := by
    intro n hn k hnk
    funext b
    match b with
    | ⟨0, _⟩ =>
      unfold GatherDims.siIdx
      rw [dif_neg (by rw [hivd]; simp)]
      unfold GatherDims.siCoord
      apply Fin.ext
      simp only [Fin.val_cast]
      exact hj _
    | ⟨1, _⟩ =>
      unfold GatherDims.siIdx
      rw [dif_pos (by rw [hivd])]
      apply Fin.ext
      exact hnk
  -- operand axis 0: the clamped row id
  have h0 : (d.operandIdx (ix1 e) idx (0 : Fin 2)).val = (clampRow N hN (idx (ix2 e (0 : Fin 2)))).val := by
    have hm : (0 : Fin 2) ∈ d.startIndexMap := by rw [hsim]; exact List.mem_cons_self
    have hi : List.idxOf (0 : Fin 2) d.startIndexMap = (0 : Fin 2).val := by rw [hsim]; simp
    simp only [GatherDims.operandIdx, GatherDims.batchCoord_eq_zero _ _ _ (hb 0), GatherDims.offCoord_eq_zero _ _ _ (hk 0),
      Nat.add_zero, GatherDims.start, dif_pos hm]
    show min (idx _).toInt.toNat (N - d.sliceSizes 0) = min (idx (ix2 e 0)).toInt.toNat (N - 1)
    rw [hsl 0, hsi _ _ 0 hi]
  -- operand axis 1: the clamped column id
  have h1 : (d.operandIdx (ix1 e) idx (1 : Fin 2)).val = (clampRow R hR (idx (ix2 e (1 : Fin 2)))).val := by
    have hm : (1 : Fin 2) ∈ d.startIndexMap := by rw [hsim]; exact List.mem_cons_of_mem _ (List.mem_singleton.mpr rfl)
    have hi : List.idxOf (1 : Fin 2) d.startIndexMap = (1 : Fin 2).val := by rw [hsim]; simp
    simp only [GatherDims.operandIdx, GatherDims.batchCoord_eq_zero _ _ _ (hb 1), GatherDims.offCoord_eq_zero _ _ _ (hk 1),
      Nat.add_zero, GatherDims.start, dif_pos hm]
    show min (idx _).toInt.toNat (R - d.sliceSizes 1) = min (idx (ix2 e 1)).toInt.toNat (R - 1)
    rw [hsl 1, hsi _ _ 1 hi]
  unfold Host.gather
  congr 1
  funext a
  match a with
  | ⟨0, _⟩ => exact Fin.ext h0
  | ⟨1, _⟩ => exact Fin.ext h1

end IndexOpsLib
-- ==== Proof.Spec.lean ====
/-
  The layer's result, entry by entry, over the extended reals — the function both programs are shown to compute.

  An id is wrapped once when negative (v < 0 ? v + n : v) and then clamped into its axis. With w[r, ·] = Σ_j W_r[r, ·, j]:
    logit e   = Σ_k x[node (dst e), k] · w[rel e, k]  +  Σ_k x[node (src e), k] · w[rel e, 64 + k]
    msg e k   = x[node (src e), k] · logistic (logit e)
    sum n k   = Σ over the edges e whose dst id, read as a signed word, is n, of msg e k      (other ids land nowhere)
    cnt n     = the number of those edges
    agg n k   = sum n k / max (cnt n) 1
    out n o   = leaky_relu (Σ_k x[n, k] · W[o, k] + Σ_k agg n k · W[o, 64 + k] + b o),  slope f32(0.01).
-/
import proofs.«411877_j2413771620668_3_alg».proof.Proof.LibGather2
import Idealize.ShloMosaic.PureOps.Ideal
import Idealize.ShloMosaic.Lib.ValueIdx

noncomputable section

namespace Cert.Spec

open Idealize.ShloMosaic Idealize.ShloMosaic.ValueIdx IndexOpsLib

abbrev SX : Shape := ⟨2, ![50000, 64]⟩
abbrev SE : Shape := ⟨1, ![800000]⟩
abbrev SW : Shape := ⟨2, ![8, 128]⟩
abbrev SL : Shape := ⟨2, ![64, 128]⟩
abbrev SB : Shape := ⟨1, ![64]⟩

/-- A negative id wraps once. -/
def wrap1 (n a : BitVec 32) : BitVec 32 := Scalar.select (IntOp.cmpi .slt a 0#32) (IntOp.addi a n) a

/-- The node an id reads: wrapped, then clamped into [0, 50000). -/
def node (a : BitVec 32) : Fin 50000 := clampRow 50000 (by decide) (wrap1 50000#32 a)

/-- The relation an id reads: wrapped, then clamped into [0, 8). -/
def relOf (a : BitVec 32) : Fin 8 := clampRow 8 (by decide) (wrap1 8#32 a)

/-- leaky_relu with slope f32(0.01), on one extended real. -/
def lrelu (z : EReal) : EReal :=
  Scalar.select (FloatOps.cmpf (F := Ideal) (φ := .f32) .oge z 0) z (Ideal.ofBits .f32 0x3C23D70A#32 * z)

variable (x : SX.Idx → EReal) (src dst rel : SE.Idx → BitVec 32) (w : SW.Idx → EReal) (Wl : SL.Idx → EReal) (b : SB.Idx → EReal)

/-- Σ_k x[n, k] · w[r, off + k] over one 64-column half of w. -/
def halfDot (off : Nat) (hoff : off + 64 ≤ 128) (n : Fin 50000) (r : Fin 8) : EReal :=
  ∑ k : Fin 64, x (ix2 n k) * w (ix2 r (⟨off + k.val, by have := k.isLt; omega⟩ : Fin 128))

def logitAt (e : Fin 800000) : EReal :=
  halfDot x w 0 (by decide) (node (dst (ix1 e))) (relOf (rel (ix1 e)))
    + halfDot x w 64 (by decide) (node (src (ix1 e))) (relOf (rel (ix1 e)))

def msgAt (e : Fin 800000) (k : Fin 64) : EReal :=
  x (ix2 (node (src (ix1 e))) k) * Ideal.logistic (logitAt x src dst rel w e)

def sumAt (n : Fin 50000) (k : Fin 64) : EReal :=
  ∑ e : Fin 800000, if (dst (ix1 e)).toInt = (n.val : Int) then msgAt x src dst rel w e k else 0

def cntAt (n : Fin 50000) : EReal :=
  ∑ e : Fin 800000, if (dst (ix1 e)).toInt = (n.val : Int) then (1 : EReal) else 0

def aggAt (n : Fin 50000) (k : Fin 64) : EReal :=
  Ideal.div (sumAt x src dst rel w n k) (max (cntAt dst n) 1)

def outAt (n : Fin 50000) (o : Fin 64) : EReal :=
  lrelu (((∑ k : Fin 64, x (ix2 n k) * Wl (ix2 o (⟨k.val, by have := k.isLt; omega⟩ : Fin 128)))
      + (∑ k : Fin 64, aggAt x src dst rel w n k * Wl (ix2 o (⟨64 + k.val, by have := k.isLt; omega⟩ : Fin 128))))
    + b (ix1 o))

/-- The word of f32 1.0 is the real 1. -/
theorem ofBits_one_f32 : Ideal.ofBits .f32 0x3F800000#32 = 1 := by
  simp [Ideal.ofBits, Ideal.ieee]
  rw [← EReal.coe_mul, ← EReal.coe_one]
  congr 1
  norm_num

end Cert.Spec

end
-- ==== Proof.LibScatterAdd.lean ====
/-
  The host's accumulating scatter over the extended reals, read at an index, for any extents.

  `scatterAdd_rows`: operand [N, C], ids an [E, 1] column, updates [E, C] (what `segment_sum` of rows lowers to):
  entry (n, c) of the result is the operand's entry plus the sum, over the edges e whose id — read as a signed
  word, not clamped — is n, of update (e, c). An id outside [0, N) lands nowhere.
  `scatterAdd_vec`: the same for a rank-1 operand [N] and updates [E].
-/
import Idealize.ShloMosaic.PureOps.Ideal
import Idealize.ShloMosaic.PureOps.Dims
import Idealize.ShloMosaic.Lib.ValueIdx

namespace IndexOpsLib

open Idealize.ShloMosaic Idealize.ShloMosaic.ValueIdx

/-- An entry of a list that is a singleton is its one element. -/
theorem getElem_of_eq_singleton {α : Type} {l : List α} {a : α} (h : l = [a]) (i : Nat) (hi : i < l.length) :
    l[i] = a := by
  subst h
  have h0 : i = 0 := by simpa using hi
  subst h0
  rfl

/-- An update lands at operand index `i` exactly when, on every operand axis, its start plus its window
    coordinate is `i`'s coordinate: the range condition is then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      rw [← hi]
      have h1 := (h a).1
      show _ = (((d.start j idx a + (d.window j a : Int)).toNat : Nat) : Int)
      omega
    · intro hi
      funext a
      apply Fin.ext
      show (d.start j idx a + (d.window j a : Int)).toNat = (i a).val
      have h1 := hi a
      omega
  · rename_i h
    constructor
    · intro hi
      cases hi
    · intro hi
      exfalso
      apply h
      intro a
      have h1 := hi a
      have h2 : (i a).val < s.size a := (i a).isLt
      omega

section Rows

variable {N C E w : Nat} (d : ScatterDims ⟨2, ![N, C]⟩ ⟨2, ![E, 1]⟩ ⟨2, ![E, C]⟩)

/-- On operand axis 0 (the scattered one) the start of update (e, c') is edge e's id, read signed. -/
theorem rows_start0 (huw : d.updateWindowDims = [1]) (hsd : d.scatterDimsToOperandDims = [0])
    (hivd : d.indexVectorDim = 1) (idx : IVec ⟨2, ![E, 1]⟩ w) (e : Fin E) (c' : Fin C) :
    d.start (ix2 e c') idx 0 = (idx (ix2 e (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    -- the ids' axis 0 is read at the update's one scatter axis, axis 0
    unfold ScatterDims.siIdx
    rw [dif_neg (by rw [hivd]; simp)]
    apply Fin.ext
    unfold ScatterDims.siCoord
    simp only [Fin.val_cast]
    have hx : ∀ x : Fin 2, x = 0 → ((ix2 e c' : (⟨2, ![E, C]⟩ : Shape).Idx) x).val = e.val := by
      intro x hx; subst hx; rfl
    exact hx _ (getElem_of_eq_singleton (by show Shape.kept _ d.updateWindowDims = [0]; rw [huw]; rfl) _ _)
  | ⟨1, _⟩ =>
    -- the index vector's axis holds the component's position in the map, 0
    unfold ScatterDims.siIdx
    rw [dif_pos (by rw [hivd])]
    apply Fin.ext
    show List.idxOf (0 : Fin 2) d.scatterDimsToOperandDims = 0
    rw [hsd]; simp

/-- On operand axis 1 (not in the map) the start is 0. -/
theorem rows_start1 (hsd : d.scatterDimsToOperandDims = [0]) (idx : IVec ⟨2, ![E, 1]⟩ w)
    (j : (⟨2, ![E, C]⟩ : Shape).Idx) : d.start j idx 1 = 0 := by
  have hm : (1 : Fin 2) ∉ d.scatterDimsToOperandDims := by rw [hsd]; simp
  unfold ScatterDims.start
  rw [dif_neg hm]

/-- On the inserted operand axis 0 the window coordinate is 0. -/
theorem rows_window0 (hiw : d.insertedWindowDims = [0]) (j : (⟨2, ![E, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On operand axis 1 the window coordinate of update (e, c') is c'. -/
theorem rows_window1 (huw : d.updateWindowDims = [1]) (hiw : d.insertedWindowDims = [0]) (e : Fin E) (c' : Fin C) :
    d.window (ix2 e c') 1 = c'.val := by
  have hk : (1 : Fin 2) ∈ d.sKept := by
    show (1 : Fin 2) ∈ Shape.kept _ d.insertedWindowDims
    rw [hiw]; simp [Shape.kept]
  unfold ScatterDims.window
  rw [dif_pos hk]
  have hx : ∀ x : Fin 2, x = 1 → ((ix2 e c' : (⟨2, ![E, C]⟩ : Shape).Idx) x).val = c'.val := by
    intro x hx; subst hx; rfl
  exact hx _ (getElem_of_eq_singleton huw _ _)

end Rows

section RowsMain

variable {N C E w : Nat} (d : ScatterDims ⟨2, ![N, C]⟩ ⟨2, ![E, 1]⟩ ⟨2, ![E, C]⟩)

/-- Update (e, c') lands at operand entry (n, c) exactly when edge e's id, read signed, is n and c' = c. -/
theorem rows_resultIdx?_eq_some_iff (huw : d.updateWindowDims = [1]) (hiw : d.insertedWindowDims = [0])
    (hsd : d.scatterDimsToOperandDims = [0]) (hivd : d.indexVectorDim = 1) (idx : IVec ⟨2, ![E, 1]⟩ w)
    (e : Fin E) (c' : Fin C) (n : Fin N) (c : Fin C) :
    d.resultIdx? (ix2 e c') idx = some (ix2 n c)
      ↔ (idx (ix2 e (0 : Fin 1))).toInt = (n.val : Int) ∧ c' = c := by
  rw [resultIdx?_eq_some_iff]
  constructor
  · intro h
    have h0 : d.start (ix2 e c') idx 0 + ((d.window (ix2 e c') 0 : Nat) : Int) = (n.val : Int) := h 0
    have h1 : d.start (ix2 e c') idx 1 + ((d.window (ix2 e c') 1 : Nat) : Int) = (c.val : Int) := h 1
    rw [rows_start0 d huw hsd hivd, rows_window0 d hiw] at h0
    rw [rows_start1 d hsd, rows_window1 d huw hiw] at h1
    refine ⟨?_, Fin.ext ?_⟩
    · omega
    · omega
  · rintro ⟨h0, h1⟩ a
    match a with
    | ⟨0, _⟩ =>
      show d.start (ix2 e c') idx 0 + ((d.window (ix2 e c') 0 : Nat) : Int) = (n.val : Int)
      rw [rows_start0 d huw hsd hivd, rows_window0 d hiw]
      omega
    | ⟨1, _⟩ =>
      show d.start (ix2 e c') idx 1 + ((d.window (ix2 e c') 1 : Nat) : Int) = (c.val : Int)
      rw [rows_start1 d hsd, rows_window1 d huw hiw, h1]
      omega

end RowsMain

theorem scatterAdd_rows {N C E w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  -- the filtered sum is a sum of `if`s over all updates, split by coordinates (e, c')
  rw [Finset.sum_filter, sum_idx2]
  refine Finset.sum_congr rfl (fun e _ => ?_)
  by_cases he : (idx (ix2 e (0 : Fin 1))).toInt = (n.val : Int)
  · -- edge e's id is n: of row e only the entry in column c lands at (n, c)
    rw [if_pos he, Finset.sum_eq_single c]
    · rw [if_pos ((rows_resultIdx?_eq_some_iff d huw hiw hsd hivd idx e c n c).2 ⟨he, rfl⟩)]
    · intro c' _ hc'
      rw [if_neg (fun h => hc' ((rows_resultIdx?_eq_some_iff d huw hiw hsd hivd idx e c' n c).1 h).2)]
    · intro h
      exact absurd (Finset.mem_univ c) h
  · -- edge e's id is not n: nothing of row e lands in row n
    rw [if_neg he]
    refine Finset.sum_eq_zero (fun c' _ => ?_)
    rw [if_neg (fun h => he ((rows_resultIdx?_eq_some_iff d huw hiw hsd hivd idx e c' n c).1 h).1)]

section Vec

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable {N E w : Nat} (d : ScatterDims ⟨1, ![N]⟩ ⟨2, ![E, 1]⟩ ⟨1, ![E]⟩)

/-- On the operand's one axis the start of update e is edge e's id, read signed. -/
theorem vec_start0 (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the ids' axis 0 is read at the update's one axis
    unfold ScatterDims.siIdx
    rw [dif_neg (by rw [hivd]; simp)]
    apply Fin.ext
    unfold ScatterDims.siCoord
    simp only [Fin.val_cast]
    have hx : ∀ x : Fin 1, ((ix1 e : (⟨1, ![E]⟩ : Shape).Idx) x).val = e.val := by
      intro x
      obtain rfl : x = 0 := Subsingleton.elim _ _
      rfl
    exact hx _
  | ⟨1, _⟩ =>
    -- the index vector's axis holds the component's position in the map, 0
    unfold ScatterDims.siIdx
    rw [dif_pos (by rw [hivd])]
    apply Fin.ext
    show List.idxOf (0 : Fin 1) d.scatterDimsToOperandDims = 0
    rw [hsd]; simp

/-- The operand's one axis is inserted: the window coordinate is 0. -/
theorem vec_window0 (hiw : d.insertedWindowDims = [0]) (j : (⟨1, ![E]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Update e lands at operand entry n exactly when edge e's id, read signed, is n. -/
theorem vec_resultIdx?_eq_some_iff (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e (0 : Fin 1))).toInt = (n.val : Int) := by
  rw [resultIdx?_eq_some_iff]
  constructor
  · intro h
    have h0 : d.start (ix1 e) idx 0 + ((d.window (ix1 e) 0 : Nat) : Int) = (n.val : Int) := h 0
    rw [vec_start0 d hsd hivd, vec_window0 d hiw] at h0
    omega
  · intro h0 a
    obtain rfl : a = 0 := Subsingleton.elim _ _
    show d.start (ix1 e) idx 0 + ((d.window (ix1 e) 0 : Nat) : Int) = (n.val : Int)
    rw [vec_start0 d hsd hivd, vec_window0 d hiw]
    omega

end Vec

theorem scatterAdd_vec {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  -- the filtered sum is a sum of `if`s over all updates, indexed by the edge e
  rw [Finset.sum_filter, sum_idx1]
  refine Finset.sum_congr rfl (fun e _ => ?_)
  by_cases he : (idx (ix2 e (0 : Fin 1))).toInt = (n.val : Int)
  · rw [if_pos he, if_pos ((vec_resultIdx?_eq_some_iff d hiw hsd hivd idx e n).2 he)]
  · rw [if_neg he, if_neg (fun h => he ((vec_resultIdx?_eq_some_iff d hiw hsd hivd idx e n).1 h))]

/-- `scatterAdd_rows` for the printed operation `Host.scatterAdd` read over the extended reals: stated over the operation's own
    head so that it applies to a program's term as it is written, at any extents. -/
theorem hostScatterAdd_rows {N C E w : Nat} {φ : FTy}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd d x idx upd (ix2 n c)
      = x (ix2 n c) + ∑ e : Fin E, if (idx (ix2 e (0 : Fin 1))).toInt = (n.val : Int) then upd (ix2 e c) else 0 :=
  scatterAdd_rows d huw hiw hsd hivd x idx upd n c

/-- `scatterAdd_vec` for the printed operation `Host.scatterAdd` read over the extended reals. -/
theorem hostScatterAdd_vec {N E w : Nat} {φ : FTy}
    (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ)
    (n : Fin N) :
    Host.scatterAdd d x idx upd (ix1 n)
      = x (ix1 n) + ∑ e : Fin E, if (idx (ix2 e (0 : Fin 1))).toInt = (n.val : Int) then upd (ix1 e) else 0 :=
  scatterAdd_vec d huw hiw hsd hivd x idx upd n

end IndexOpsLib
-- ==== Proof.BridgeK.lean ====
/-
  The kernel program's term, read at an entry, is the specification: the padded tail of the edges lands nowhere, and
  taking one scalar of x · wᵀ per edge is the 64-term dot product of the two rows.
-/
import proofs.«411877_j2413771620668_3_alg».proof.Proof.KTerm
import proofs.«411877_j2413771620668_3_alg».proof.Proof.Spec
import proofs.«411877_j2413771620668_3_alg».proof.Proof.LibGather2
import proofs.«411877_j2413771620668_3_alg».proof.Proof.LibScatterAdd
import proofs.«411877_j2413771620668_3_alg».proof.Proof.LibLayout2
import Idealize.ShloMosaic.PureOps.Ideal.Laws
import Idealize.ShloMosaic.Lib.ValueLayout

noncomputable section

namespace Cert.Bridge

open Idealize.ShloMosaic Idealize.ShloMosaic.ValueIdx IndexOpsLib Cert.KernelIdeal Cert.KernelIdeal.Gen

open Cert.KernelIdeal.Val

/-! ## The id arrays, entry by entry -/

/-- A real edge of a padded id array reads the array. -/
theorem padded_lt (v : IVec S800000 32) (e : Fin 802816) (h : e.val < 800000) :
    padded v (ix1 e) = v (ix1 ⟨e.val, h⟩) := by
  unfold padded
  refine (pad_tail_apply (n := 800000) (k := 2816) (T := 802816) v _ _ _ e).trans ?_
  exact dif_pos h

/-- The wrap, entry by entry. -/
theorem wrapped_apply (n : BitVec 32) (v : IVec S802816 32) (e : Fin 802816) :
    wrapped n v (ix1 e) = Cert.Spec.wrap1 n (v (ix1 e)) := rfl

/-- A vector as a column reads the vector. -/
theorem column_apply (v : IVec S802816 32) (e : Fin 802816) : column v (ix2 e (0 : Fin 1)) = v (ix1 e) := by
  unfold column
  exact col_apply _ v e

theorem pairs_apply0 (a b : IVec S802816 32) (e : Fin 802816) : pairs a b (ix2 e (0 : Fin 2)) = a (ix1 e) := by
  unfold pairs
  exact (concat_cols_apply0 (column a) (column b) _ e).trans (column_apply a e)

theorem pairs_apply1 (a b : IVec S802816 32) (e : Fin 802816) : pairs a b (ix2 e (1 : Fin 2)) = b (ix1 e) := by
  unfold pairs
  exact (concat_cols_apply1 (column a) (column b) _ e).trans (column_apply b e)

/-- A natural below 2³¹, as a 32-bit word, reads itself signed. -/
theorem toInt_ofNat_small (a : ℕ) (ha : a < 2 ^ 31) : (BitVec.ofNat 32 a).toInt = (a : Int) := by
  have h1 : (BitVec.ofNat 32 a).toNat = a := by rw [BitVec.toNat_ofNat]; omega
  rw [BitVec.toInt_eq_toNat_cond, h1]
  split <;> omega

/-- Edge number e, as a word, is below 800000 exactly when e is. -/
theorem slt_edge_iff (e : Fin 802816) :
    IntOp.cmpi .slt (BitVec.ofNat 32 e.val) (BitVec.ofNat 32 800000) = 1#1 ↔ e.val < 800000 := by
  rw [IntOp.cmpi_slt, toInt_ofNat_small e.val (by have := e.isLt; omega), toInt_ofNat_small 800000 (by decide)]
  omega

/-- The scatter id of a real edge is its destination id … -/
theorem segIds_lt (dst : IVec S800000 32) (e : Fin 802816) (h : e.val < 800000) :
    segIds dst (ix1 e) = dst (ix1 ⟨e.val, h⟩) := by
  have hc : IntOp.cmpi .slt (BitVec.ofNat 32 e.val) (BitVec.ofNat 32 800000) = 1#1 :=
    (slt_edge_iff e).2 h
  show Scalar.select (IntOp.cmpi .slt (BitVec.ofNat 32 e.val) (BitVec.ofNat 32 800000)) (padded dst (ix1 e)) _ = _
  rw [hc]
  exact (if_pos rfl).trans (padded_lt dst e h)

/-- … and that of a padded edge is 50000, one past the last node. -/
theorem segIds_ge (dst : IVec S800000 32) (e : Fin 802816) (h : ¬ e.val < 800000) :
    segIds dst (ix1 e) = 50000#32 := by
  have hc : ¬ IntOp.cmpi .slt (BitVec.ofNat 32 e.val) (BitVec.ofNat 32 800000) = 1#1 := fun hc =>
    h ((slt_edge_iff e).1 hc)
  show Scalar.select (IntOp.cmpi .slt (BitVec.ofNat 32 e.val) (BitVec.ofNat 32 800000)) _ (50000#32) = _
  exact if_neg hc

/-! ## The two halves of the relation weights, and one scalar per (node, relation) -/

/-- The destination half: columns 0 … 63 of the summed relation weights. -/
theorem wDst_apply (Wr : FVec Ideal S8x128x64 .f32) (r : Fin 8) (k : Fin 64) :
    wDst Wr (ix2 r k) = relSum Wr (ix2 r (⟨0 + k.val, by have := k.isLt; omega⟩ : Fin 128)) := by
  unfold wDst
  exact slice2_axis1_apply 0 (relSum Wr) _ r k _ rfl

/-- The source half: columns 64 … 127. -/
theorem wSrc_apply (Wr : FVec Ideal S8x128x64 .f32) (r : Fin 8) (k : Fin 64) :
    wSrc Wr (ix2 r k) = relSum Wr (ix2 r (⟨64 + k.val, by have := k.isLt; omega⟩ : Fin 128)) := by
  unfold wSrc
  exact slice2_axis1_apply 64 (relSum Wr) _ r k _ rfl

theorem dot_lhs_0 (i : S50000x8.Idx) (q : dot_S50000x64_S64x8_S50000x8_1_0_0_1_n_n.contr.Idx) :
    (dot_S50000x64_S64x8_S50000x8_1_0_0_1_n_n.lhsIdx i q 0).val = (i 0).val := by
  unfold DotDims.lhsIdx
  rw [dif_neg (show ¬(0 : Fin S50000x64.rank) ∈ dot_S50000x64_S64x8_S50000x8_1_0_0_1_n_n.lhsBatch by decide),
    dif_pos (show (0 : Fin S50000x64.rank) ∈ dot_S50000x64_S64x8_S50000x8_1_0_0_1_n_n.lhsNonContracting by decide)]
  rfl

theorem dot_lhs_1 (i : S50000x8.Idx) (q : dot_S50000x64_S64x8_S50000x8_1_0_0_1_n_n.contr.Idx) :
    (dot_S50000x64_S64x8_S50000x8_1_0_0_1_n_n.lhsIdx i q 1).val = (q ⟨0, by decide⟩).val :=
  dot_S50000x64_S64x8_S50000x8_1_0_0_1_n_n.lhsIdx_val_of_single rfl i q

theorem dot_rhs_0 (i : S50000x8.Idx) (q : dot_S50000x64_S64x8_S50000x8_1_0_0_1_n_n.contr.Idx) :
    (dot_S50000x64_S64x8_S50000x8_1_0_0_1_n_n.rhsIdx i q 0).val = (q ⟨0, by decide⟩).val :=
  dot_S50000x64_S64x8_S50000x8_1_0_0_1_n_n.rhsIdx_val_of_single rfl i q

theorem dot_rhs_1 (i : S50000x8.Idx) (q : dot_S50000x64_S64x8_S50000x8_1_0_0_1_n_n.contr.Idx) :
    (dot_S50000x64_S64x8_S50000x8_1_0_0_1_n_n.rhsIdx i q 1).val = (i 1).val := by
  unfold DotDims.rhsIdx
  rw [dif_neg (show ¬(1 : Fin S64x8.rank) ∈ dot_S50000x64_S64x8_S50000x8_1_0_0_1_n_n.rhsBatch by decide),
    dif_pos (show (1 : Fin S64x8.rank) ∈ dot_S50000x64_S64x8_S50000x8_1_0_0_1_n_n.rhsNonContracting by decide)]
  rfl

/-- Entry (n, r) of x · wᵀ is the 64-term dot product of row n of x and row r of w. -/
theorem proj_apply (x : FVec Ideal S50000x64 .f32) (w : FVec Ideal S8x64 .f32) (n : Fin 50000) (r : Fin 8) :
    proj x w (ix2 n r) = ∑ k : Fin 64, x (ix2 n k) * w (ix2 r k) := by
  unfold proj
  simp only [Host.dotGeneral]
  rw [Ideal.dotGeneral_apply, ← Equiv.sum_comp (ValueIdx.contrEquiv1 dot_S50000x64_S64x8_S50000x8_1_0_0_1_n_n 64 rfl rfl).symm]
  refine Finset.sum_congr rfl fun k _ => ?_
  have hk := ValueIdx.contrEquiv1_symm_val dot_S50000x64_S64x8_S50000x8_1_0_0_1_n_n 64 rfl rfl k
  have hl : dot_S50000x64_S64x8_S50000x8_1_0_0_1_n_n.lhsIdx (ix2 n r)
      ((ValueIdx.contrEquiv1 dot_S50000x64_S64x8_S50000x8_1_0_0_1_n_n 64 rfl rfl).symm k) = ix2 n k :=
    funext fun a => Fin.ext (by
      match a with
      | ⟨0, _⟩ => exact dot_lhs_0 _ _
      | ⟨1, _⟩ => exact (dot_lhs_1 _ _).trans hk)
  have hr : dot_S50000x64_S64x8_S50000x8_1_0_0_1_n_n.rhsIdx (ix2 n r)
      ((ValueIdx.contrEquiv1 dot_S50000x64_S64x8_S50000x8_1_0_0_1_n_n 64 rfl rfl).symm k) = ix2 k r :=
    funext fun a => Fin.ext (by
      match a with
      | ⟨0, _⟩ => exact (dot_rhs_0 _ _).trans hk
      | ⟨1, _⟩ => exact dot_rhs_1 _ _)
  rw [hl, hr, transpose_ix2_apply]

/-! ## Per real edge: the logit, the source row, the message -/

/-- A wrapped padded id array at a real edge is the wrapped id. -/
theorem wrapped_padded_lt (n : BitVec 32) (v : IVec S800000 32) (e : Fin 802816) (h : e.val < 800000) :
    wrapped n (padded v) (ix1 e) = Cert.Spec.wrap1 n (v (ix1 ⟨e.val, h⟩)) :=
  (wrapped_apply n (padded v) e).trans (congrArg (Cert.Spec.wrap1 n) (padded_lt v e h))

/-- One scalar of a [50000, 8] table taken per edge at the (node, relation) pair of ids, each clamped into its axis. -/
theorem gather2_apply (p : FVec Ideal S50000x8 .f32) (a b : IVec S802816 32) (e : Fin 802816) :
    Host.gather gather_S50000x8_S802816x2_S802816_n_01_n_n_01_1_11 p (pairs a b) (ix1 e)
      = p (ix2 (clampRow 50000 (by decide) (a (ix1 e))) (clampRow 8 (by decide) (b (ix1 e)))) := by
  refine (gather_pairs (N := 50000) (R := 8) (E := 802816) (by decide) (by decide)
    gather_S50000x8_S802816x2_S802816_n_01_n_n_01_1_11 rfl rfl rfl rfl rfl p (pairs a b) e).trans ?_
  rw [pairs_apply0, pairs_apply1]

theorem projDst_apply (x : FVec Ideal S50000x64 .f32) (Wr : FVec Ideal S8x128x64 .f32) (n : Fin 50000) (r : Fin 8) :
    proj x (wDst Wr) (ix2 n r) = Cert.Spec.halfDot x (relSum Wr) 0 (by decide) n r := by
  rw [proj_apply]
  unfold Cert.Spec.halfDot
  exact Finset.sum_congr rfl fun k _ => congrArg (x (ix2 n k) * ·) (wDst_apply Wr r k)

theorem projSrc_apply (x : FVec Ideal S50000x64 .f32) (Wr : FVec Ideal S8x128x64 .f32) (n : Fin 50000) (r : Fin 8) :
    proj x (wSrc Wr) (ix2 n r) = Cert.Spec.halfDot x (relSum Wr) 64 (by decide) n r := by
  rw [proj_apply]
  unfold Cert.Spec.halfDot
  exact Finset.sum_congr rfl fun k _ => congrArg (x (ix2 n k) * ·) (wSrc_apply Wr r k)

/-- The logit of a real edge is the specification's. -/
theorem logit_lt (x : FVec Ideal S50000x64 .f32) (src dst rel : IVec S800000 32) (Wr : FVec Ideal S8x128x64 .f32)
    (e : Fin 802816) (h : e.val < 800000) :
    logit x src dst rel Wr (ix1 e) = Cert.Spec.logitAt x src dst rel (relSum Wr) ⟨e.val, h⟩ := by
  unfold logit
  rw [addf_apply, gather2_apply, gather2_apply, wrapped_padded_lt _ dst e h, wrapped_padded_lt _ src e h,
    wrapped_padded_lt _ rel e h, projDst_apply, projSrc_apply]
  rfl

/-- The source row of a real edge is x at the edge's source node. -/
theorem xSrc_lt (x : FVec Ideal S50000x64 .f32) (src : IVec S800000 32) (e : Fin 802816) (h : e.val < 800000) (k : Fin 64) :
    xSrc x src (ix2 e k) = x (ix2 (Cert.Spec.node (src (ix1 ⟨e.val, h⟩))) k) := by
  unfold xSrc
  refine (gather_rows (N := 50000) (C := 64) (E := 802816) (by decide)
    gather_S50000x64_S802816x1_S802816x64_1_0_n_n_0_1_164 rfl rfl rfl rfl rfl x _ e k).trans ?_
  rw [column_apply, wrapped_padded_lt _ src e h]
  rfl

/-- The message of a real edge is the specification's. -/
theorem gated_lt (x : FVec Ideal S50000x64 .f32) (src dst rel : IVec S800000 32) (Wr : FVec Ideal S8x128x64 .f32)
    (e : Fin 802816) (h : e.val < 800000) (k : Fin 64) :
    gated (xSrc x src) (logit x src dst rel Wr) (ix2 e k) = Cert.Spec.msgAt x src dst rel (relSum Wr) ⟨e.val, h⟩ k := by
  rw [gated_apply, xSrc_lt x src e h k, logit_lt x src dst rel Wr e h]
  rfl

/-! ## The per-node sums: the padded tail lands nowhere -/

/-- A sum over n edges whose terms vanish past the first m ≤ n is the sum over the first m. -/
theorem sum_tail_zero {m n : Nat} (hmn : m ≤ n) (f : Fin m → EReal) :
    (∑ e : Fin n, if h : e.val < m then f ⟨e.val, h⟩ else 0) = ∑ e : Fin m, f e := by
  have hsub : (∑ e ∈ Finset.univ.map (Fin.castLEEmb hmn), (if h : e.val < m then f ⟨e.val, h⟩ else 0))
      = ∑ e : Fin n, if h : e.val < m then f ⟨e.val, h⟩ else 0 :=
    Finset.sum_subset (Finset.subset_univ _) (fun e _ hnot =>
      dif_neg (fun h => hnot (Finset.mem_map.mpr ⟨⟨e.val, h⟩, Finset.mem_univ _, Fin.ext rfl⟩)))
  rw [← hsub, Finset.sum_map]
  refine Finset.sum_congr rfl fun e _ => ?_
  exact dif_pos (show (Fin.castLEEmb hmn e).val < m from e.isLt)

/-- The host's scatter-add at the extended reals is the exact one (stated at any shapes). -/
theorem hostScatterAdd_eq {s si su : Shape} {φ : FTy} {w : Nat} (d : ScatterDims s si su) (x : FVec Ideal s φ)
    (idx : IVec si w) (upd : FVec Ideal su φ) (i : s.Idx) :
    Host.scatterAdd d x idx upd i = Ideal.hostScatterAdd d x idx upd i := rfl

/-- The host's division at the extended reals, entry by entry (stated at any shape). -/
theorem hostDivf_apply {s : Shape} {φ : FTy} (a b : FVec Ideal s φ) (i : s.Idx) :
    Host.divf a b i = Ideal.div (a i) (b i) := rfl

/-- The zero splat reads 0. -/
theorem zeros_apply {t : Shape} (h : S_.BroadcastsInDim t ![]) (j : t.Idx) :
    broadcastInDim t ![] h (constant (F := Ideal) S_ .f32 0x00000000#32) j = (0 : EReal) :=
  (splat_apply h _ j).trans Ideal.ofBits_zero_f32

/-- The splat of f32 1.0 reads 1. -/
theorem ones_apply {t : Shape} (h : S_.BroadcastsInDim t ![]) (j : t.Idx) :
    broadcastInDim t ![] h (constant (F := Ideal) S_ .f32 0x3F800000#32) j = (1 : EReal) :=
  (splat_apply h _ j).trans Cert.Spec.ofBits_one_f32

/-- The per-node sum of any messages at any scatter ids: entry (n, k) sums column k of the rows whose id, read signed, is n. -/
theorem msgSum_apply (msg : FVec Ideal S802816x64 .bf16) (ids : IVec S802816 32) (n : Fin 50000) (k : Fin 64) :
    msgSum msg ids (ix2 n k)
      = ∑ e : Fin 802816, if (ids (ix1 e)).toInt = (n.val : Int) then (msg (ix2 e k) : EReal) else 0 := by
  unfold msgSum
  rw [hostScatterAdd_eq]
  refine (scatterAdd_rows (N := 50000) (C := 64) (E := 802816) scatter_S50000x64_S802816x1_S802816x64_1_0_0_1
    rfl rfl rfl rfl _ (column ids) _ n k).trans ?_
  rw [zeros_apply, zero_add]
  refine Finset.sum_congr rfl fun e _ => ?_
  rw [column_apply, extf_apply]

/-- The per-node count at any scatter ids. -/
theorem cnt_apply (ids : IVec S802816 32) (n : Fin 50000) :
    cnt ids (ix1 n) = ∑ e : Fin 802816, if (ids (ix1 e)).toInt = (n.val : Int) then (1 : EReal) else 0 := by
  unfold cnt
  rw [hostScatterAdd_eq]
  refine (scatterAdd_vec (N := 50000) (E := 802816) scatter_S50000_S802816x1_S802816_n_0_0_1
    rfl rfl rfl rfl _ (column ids) _ n).trans ?_
  rw [zeros_apply, zero_add]
  refine Finset.sum_congr rfl fun e _ => ?_
  rw [column_apply, ones_apply]

/-- The tail's scatter id, 50000, is no node. -/
theorem tail_ne (n : Fin 50000) : ¬ (50000#32 : BitVec 32).toInt = (n.val : Int) := by
  rw [toInt_ofNat_small 50000 (by decide)]
  have := n.isLt
  omega

/-- Edge e's term of node n's message sum: the specification's on a real edge, 0 on the tail. -/
theorem msg_term (x : FVec Ideal S50000x64 .f32) (src dst rel : IVec S800000 32) (Wr : FVec Ideal S8x128x64 .f32)
    (n : Fin 50000) (k : Fin 64) (e : Fin 802816) :
    (if (segIds dst (ix1 e)).toInt = (n.val : Int) then
        (gated (xSrc x src) (logit x src dst rel Wr) (ix2 e k) : EReal) else 0)
      = if h : e.val < 800000 then
          (if (dst (ix1 ⟨e.val, h⟩)).toInt = (n.val : Int) then Cert.Spec.msgAt x src dst rel (relSum Wr) ⟨e.val, h⟩ k else 0)
        else 0 := by
  by_cases h : e.val < 800000
  · rw [dif_pos h, segIds_lt dst e h, gated_lt x src dst rel Wr e h k]
  · rw [dif_neg h, segIds_ge dst e h, if_neg (tail_ne n)]

/-- Edge e's term of node n's count. -/
theorem cnt_term (dst : IVec S800000 32) (n : Fin 50000) (e : Fin 802816) :
    (if (segIds dst (ix1 e)).toInt = (n.val : Int) then (1 : EReal) else 0)
      = if h : e.val < 800000 then (if (dst (ix1 ⟨e.val, h⟩)).toInt = (n.val : Int) then (1 : EReal) else 0) else 0 := by
  by_cases h : e.val < 800000
  · rw [dif_pos h, segIds_lt dst e h]
  · rw [dif_neg h, segIds_ge dst e h, if_neg (tail_ne n)]

theorem msgSum_kernel (x : FVec Ideal S50000x64 .f32) (src dst rel : IVec S800000 32) (Wr : FVec Ideal S8x128x64 .f32)
    (n : Fin 50000) (k : Fin 64) :
    msgSum (gated (xSrc x src) (logit x src dst rel Wr)) (segIds dst) (ix2 n k)
      = Cert.Spec.sumAt x src dst rel (relSum Wr) n k := by
  rw [msgSum_apply]
  unfold Cert.Spec.sumAt
  refine (Finset.sum_congr rfl fun e _ => msg_term x src dst rel Wr n k e).trans ?_
  exact sum_tail_zero (m := 800000) (n := 802816) (by decide)
    (fun e => if (dst (ix1 e)).toInt = (n.val : Int) then Cert.Spec.msgAt x src dst rel (relSum Wr) e k else 0)

theorem cnt_kernel (dst : IVec S800000 32) (n : Fin 50000) : cnt (segIds dst) (ix1 n) = Cert.Spec.cntAt dst n := by
  rw [cnt_apply]
  unfold Cert.Spec.cntAt
  refine (Finset.sum_congr rfl fun e _ => cnt_term dst n e).trans ?_
  exact sum_tail_zero (m := 800000) (n := 802816) (by decide)
    (fun e => if (dst (ix1 e)).toInt = (n.val : Int) then (1 : EReal) else 0)

/-- The mean message per node is the specification's. -/
theorem agg_kernel (x : FVec Ideal S50000x64 .f32) (src dst rel : IVec S800000 32) (Wr : FVec Ideal S8x128x64 .f32)
    (n : Fin 50000) (k : Fin 64) :
    agg (gated (xSrc x src) (logit x src dst rel Wr)) (segIds dst) (ix2 n k)
      = Cert.Spec.aggAt x src dst rel (relSum Wr) n k := by
  unfold agg Cert.Spec.aggAt
  rw [hostDivf_apply, msgSum_kernel, spread_col_apply, col_apply, maximumf_apply, cnt_kernel, ones_apply]

/-! ## The linear layer -/

theorem wxT_apply (Wl : FVec Ideal S64x128 .f32) (k o : Fin 64) :
    wxT Wl (ix2 k o) = Wl (ix2 o (⟨k.val, by have := k.isLt; omega⟩ : Fin 128)) := by
  unfold wxT
  rw [transpose_ix2_apply]
  exact slice2_axis1_apply 0 Wl _ o k _ (Nat.zero_add _).symm

theorem waT_apply (Wl : FVec Ideal S64x128 .f32) (k o : Fin 64) :
    waT Wl (ix2 k o) = Wl (ix2 o (⟨64 + k.val, by have := k.isLt; omega⟩ : Fin 128)) := by
  unfold waT
  rw [transpose_ix2_apply]
  exact slice2_axis1_apply 64 Wl _ o k _ rfl

theorem bRow_apply (b : FVec Ideal S64 .f32) (o : Fin 64) : bRow b (ix2 (0 : Fin 1) o) = b (ix1 o) := by
  unfold bRow
  exact shapeCast_a_1a_apply b _ 0 o

/-- The two leaky_relu's differ only in how they write the zero they compare with. -/
theorem lrelu_eq (z : EReal) : Cert.KernelIdeal.Val.lrelu z = Cert.Spec.lrelu z := by
  unfold Cert.KernelIdeal.Val.lrelu Cert.Spec.lrelu
  rw [Ideal.ofBits_zero_f32]

theorem kterm_apply (x : FVec Ideal S50000x64 .f32) (src dst rel : IVec S800000 32)
    (Wr : FVec Ideal S8x128x64 .f32) (Wl : FVec Ideal S64x128 .f32) (b : FVec Ideal S64 .f32) (n : Fin 50000) (o : Fin 64) :
    Cert.KernelIdeal.Val.kterm x src dst rel Wr Wl b (ix2 n o)
      = Cert.Spec.outAt x src dst rel (Cert.KernelIdeal.Val.relSum Wr) Wl b n o := by
  show linearAt x _ (wxT Wl) (waT Wl) (bRow b) n o = _
  unfold linearAt Cert.Spec.outAt
  rw [lrelu_eq, bRow_apply]
  refine congrArg Cert.Spec.lrelu (congrArg (· + b (ix1 o)) (congrArg₂ (· + ·) ?_ ?_))
  · exact Finset.sum_congr rfl fun k _ => congrArg (x (ix2 n k) * ·) (wxT_apply Wl k o)
  · exact Finset.sum_congr rfl fun k _ => congrArg₂ (· * ·) (agg_kernel x src dst rel Wr n k) (waT_apply Wl k o)

end Cert.Bridge

end
-- ==== Proof.BridgeR.lean ====
/-
  The reference program's term, read at an entry, is the specification: the 128-term sum over [x | agg] is the sum
  of its two 64-term halves, and 1 / (1 + exp (−z)) is the logistic.
-/
import proofs.«411877_j2413771620668_3_alg».proof.Proof.RTerm
import proofs.«411877_j2413771620668_3_alg».proof.Proof.Spec
import proofs.«411877_j2413771620668_3_alg».proof.Proof.LibGather2
import proofs.«411877_j2413771620668_3_alg».proof.Proof.LibScatterAdd
import proofs.«411877_j2413771620668_3_alg».proof.Proof.LibLayout2
import Idealize.ShloMosaic.PureOps.Ideal.Laws
import Idealize.ShloMosaic.Lib.ValueLayout
import Mathlib.Algebra.BigOperators.Fin

noncomputable section

namespace Cert.Bridge

open Idealize.ShloMosaic Idealize.ShloMosaic.ValueIdx IndexOpsLib Cert.ReferenceIdeal Cert.ReferenceIdeal.Gen

/-! ## Host operations over the extended reals, for any extents

  The host's accumulating scatter of rows and of entries, its division, and the splats of the f32 words of 0 and 1.0,
  each read at an index. -/

/-- Rows scattered with addition, read at (n, c): the operand there plus the updates of the edges whose id is n. -/
theorem ref_hsa_rows {N C E w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![E, 1]⟩ w) (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 :=
  scatterAdd_rows d huw hiw hsd hivd x idx upd n c

/-- Entries scattered with addition, read at n. -/
theorem ref_hsa_vec {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 :=
  scatterAdd_vec d huw hiw hsd hivd x idx upd n

/-- The host's division, entry by entry. -/
theorem ref_hostDivf_apply {s : Shape} {φ : FTy} (a b : FVec Ideal s φ) (i : s.Idx) :
    Host.divf a b i = Ideal.div (a i) (b i) := rfl

/-- A splat of the f32 word of 0 reads 0. -/
theorem ref_zeros_apply {t : Shape} (h : (⟨0, ![]⟩ : Shape).BroadcastsInDim t ![]) (j : t.Idx) :
    broadcastInDim t ![] h (constant (F := Ideal) ⟨0, ![]⟩ .f32 0x00000000#32) j = 0 := by
  rw [splat_apply, constant_apply, Ideal.ofBits_zero_f32]

/-- A splat of the f32 word of 1.0 reads 1. -/
theorem ref_ones_apply {t : Shape} (h : (⟨0, ![]⟩ : Shape).BroadcastsInDim t ![]) (j : t.Idx) :
    broadcastInDim t ![] h (constant (F := Ideal) ⟨0, ![]⟩ .f32 0x3F800000#32) j = 1 := by
  rw [splat_apply, constant_apply, Cert.Spec.ofBits_one_f32]

/-! ## The ids -/

/-- A wrapped id vector at edge e is the wrap of the id. -/
theorem ref_wrapped_apply (n : BitVec 32) (v : IVec S800000 32) (e : Fin 800000) :
    Val.wrapped n v (ix1 e) = Cert.Spec.wrap1 n (v (ix1 e)) := rfl

/-- The one-column matrix of a vector reads the vector. -/
theorem ref_column_apply (v : IVec S800000 32) (e : Fin 800000) :
    Val.column v (ix2 e (0 : Fin 1)) = v (ix1 e) :=
  col_apply _ v e

/-! ## The gathered rows -/

/-- Row e of the gathered node features is the row of x at the node edge e's id reads. -/
theorem ref_rowsOf_apply (x : FVec Ideal S50000x64 .f32) (ids : IVec S800000 32) (e : Fin 800000) (k : Fin 64) :
    Val.rowsOf x ids (ix2 e k) = x (ix2 (Cert.Spec.node (ids (ix1 e))) k) := by
  have h := gather_rows (N := 50000) (C := 64) (E := 800000) (by decide)
    gather_S50000x64_S800000x1_S800000x64_1_0_n_n_0_1_164 rfl rfl rfl rfl rfl x
    (Val.column (Val.wrapped 50000#32 ids)) e k
  rw [ref_column_apply, ref_wrapped_apply] at h
  exact h

/-- Row e of the gathered relation weights is the row of w at the relation edge e's id reads. -/
theorem ref_relRows_apply (w : FVec Ideal S8x64 .f32) (rel : IVec S800000 32) (e : Fin 800000) (k : Fin 64) :
    Val.relRows w rel (ix2 e k) = w (ix2 (Cert.Spec.relOf (rel (ix1 e))) k) := by
  have h := gather_rows (N := 8) (C := 64) (E := 800000) (by decide)
    gather_S8x64_S800000x1_S800000x64_1_0_n_n_0_1_164 rfl rfl rfl rfl rfl w
    (Val.column (Val.wrapped 8#32 rel)) e k
  rw [ref_column_apply, ref_wrapped_apply] at h
  exact h

/-! ## The two halves of the summed relation weights -/

theorem ref_wDst_apply (Wr : FVec Ideal S8x128x64 .f32) (r : Fin 8) (k : Fin 64) :
    Val.wDst Wr (ix2 r k) = Val.relSum Wr (ix2 r (⟨0 + k.val, by have := k.isLt; omega⟩ : Fin 128)) :=
  slice2_axis1_apply 0 (Val.relSum Wr) slices_S8x128_S8x64_0_0 r k _ rfl

theorem ref_wSrc_apply (Wr : FVec Ideal S8x128x64 .f32) (r : Fin 8) (k : Fin 64) :
    Val.wSrc Wr (ix2 r k) = Val.relSum Wr (ix2 r (⟨64 + k.val, by have := k.isLt; omega⟩ : Fin 128)) :=
  slice2_axis1_apply 64 (Val.relSum Wr) slices_S8x128_S8x64_0_64 r k _ rfl

/-! ## The row-wise dot product and the logit -/

/-- The row-wise dot product at edge e is the 64-term sum of products. -/
theorem ref_rowDot_apply (a b : FVec Ideal S800000x64 .f32) (e : Fin 800000) :
    Val.rowDot a b (ix1 e) = ∑ k : Fin 64, a (ix2 e k) * b (ix2 e k) := by
  unfold Val.rowDot
  simp only [Host.reduceAdd, Ideal.hostReduceAdd_def]
  rw [Ideal.hostReduceAdd_single reducesTo_S800000x64_S800000_d1 (by decide)]
  rw [constant_apply, Ideal.ofBits_zero_f32, zero_add]
  refine Finset.sum_congr rfl fun k _ => ?_
  rw [mulf_apply]
  have hi : (Shape.Reduces.lift (s := S800000x64) (t := S800000) (a := 1) (by decide) (ix1 e) k) = ix2 e k :=
    funext fun a => Fin.ext (by match a with | ⟨0, _⟩ => rfl | ⟨1, _⟩ => rfl)
  rw [hi]
  rfl

theorem ref_logit_apply (x : FVec Ideal S50000x64 .f32) (src dst rel : IVec S800000 32) (Wr : FVec Ideal S8x128x64 .f32)
    (e : Fin 800000) :
    Val.logit x src dst rel Wr (ix1 e) = Cert.Spec.logitAt x src dst rel (Val.relSum Wr) e := by
  unfold Val.logit Cert.Spec.logitAt Cert.Spec.halfDot
  rw [addf_apply, ref_rowDot_apply, ref_rowDot_apply]
  refine congrArg₂ (· + ·) (Finset.sum_congr rfl fun k _ => ?_) (Finset.sum_congr rfl fun k _ => ?_)
  · rw [ref_rowsOf_apply, ref_relRows_apply, ref_wDst_apply]
  · rw [ref_rowsOf_apply, ref_relRows_apply, ref_wSrc_apply]

/-! ## The gate and the messages -/

/-- 1 / (1 + exp (−z)) is the logistic of z. -/
theorem ref_sigmoid_apply (z : FVec Ideal S800000 .f32) (e : Fin 800000) :
    Val.sigmoid z (ix1 e) = Ideal.logistic (z (ix1 e)) := by
  unfold Val.sigmoid
  rw [ref_hostDivf_apply, addf_apply, ref_ones_apply]
  rfl

theorem ref_msg_apply (x : FVec Ideal S50000x64 .f32) (src : IVec S800000 32) (gate : FVec Ideal S800000 .f32)
    (e : Fin 800000) (k : Fin 64) :
    Val.msg x src gate (ix2 e k) = x (ix2 (Cert.Spec.node (src (ix1 e))) k) * gate (ix1 e) := by
  unfold Val.msg
  rw [mulf_apply, ref_rowsOf_apply, spread_col_apply, col_apply]

/-! ## The per-node sums -/

/-- The scattered sum at (n, k) is the sum of the messages of the edges whose id, read signed, is n. -/
theorem ref_msgSum_apply (m : FVec Ideal S800000x64 .f32) (ids : IVec S800000 32) (n : Fin 50000) (k : Fin 64) :
    Val.msgSum m ids (ix2 n k)
      = ∑ e : Fin 800000, if (ids (ix1 e)).toInt = (n.val : Int) then m (ix2 e k) else 0 := by
  unfold Val.msgSum
  refine (ref_hsa_rows _ rfl rfl rfl rfl _ _ _ n k).trans ?_
  rw [ref_zeros_apply, zero_add]
  refine Finset.sum_congr rfl fun e _ => ?_
  rw [ref_column_apply]

/-- The scattered count at n is the number of edges whose id, read signed, is n. -/
theorem ref_cnt_apply (ids : IVec S800000 32) (n : Fin 50000) :
    Val.cnt ids (ix1 n) = Cert.Spec.cntAt ids n := by
  unfold Val.cnt Cert.Spec.cntAt
  refine (ref_hsa_vec _ rfl rfl rfl rfl _ _ _ n).trans ?_
  rw [ref_zeros_apply, zero_add]
  refine Finset.sum_congr rfl fun e _ => ?_
  rw [ref_column_apply, ref_ones_apply]

/-- The mean at (n, k) is the sum there divided by max (count at n) 1. -/
theorem ref_agg_apply (m : FVec Ideal S800000x64 .f32) (ids : IVec S800000 32) (n : Fin 50000) (k : Fin 64) :
    Val.agg m ids (ix2 n k) = Ideal.div (Val.msgSum m ids (ix2 n k)) (max (Val.cnt ids (ix1 n)) 1) := by
  unfold Val.agg
  rw [ref_hostDivf_apply, spread_col_apply, col_apply, maximumf_apply, ref_ones_apply]

/-- The per-node sum of the program's own messages is the specification's. -/
theorem ref_sum_spec (x : FVec Ideal S50000x64 .f32) (src dst rel : IVec S800000 32) (Wr : FVec Ideal S8x128x64 .f32)
    (n : Fin 50000) (k : Fin 64) :
    Val.msgSum (Val.msg x src (Val.sigmoid (Val.logit x src dst rel Wr))) dst (ix2 n k)
      = Cert.Spec.sumAt x src dst rel (Val.relSum Wr) n k := by
  rw [ref_msgSum_apply]
  unfold Cert.Spec.sumAt Cert.Spec.msgAt
  refine Finset.sum_congr rfl fun e _ => ?_
  rw [ref_msg_apply, ref_sigmoid_apply, ref_logit_apply]

/-- The mean message of the program's own messages is the specification's. -/
theorem ref_agg_spec (x : FVec Ideal S50000x64 .f32) (src dst rel : IVec S800000 32) (Wr : FVec Ideal S8x128x64 .f32)
    (n : Fin 50000) (k : Fin 64) :
    Val.agg (Val.msg x src (Val.sigmoid (Val.logit x src dst rel Wr))) dst (ix2 n k)
      = Cert.Spec.aggAt x src dst rel (Val.relSum Wr) n k := by
  rw [ref_agg_apply, ref_sum_spec, ref_cnt_apply]
  unfold Cert.Spec.aggAt
  rfl

/-! ## The linear layer: the host contraction read at an entry -/

theorem ref_dot_lhs_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide),
    dif_pos (show (0 : Fin S50000x128.rank) ∈ dot_S50000x128_S128x64_S50000x64_1_0_0_1_n_n.lhsNonContracting by decide)]
  rfl

theorem ref_dot_lhs_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q

theorem ref_dot_rhs_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q

theorem ref_dot_rhs_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide),
    dif_pos (show (1 : Fin S128x64.rank) ∈ dot_S50000x128_S128x64_S50000x64_1_0_0_1_n_n.rhsNonContracting by decide)]
  rfl

/-- The host contraction of a [50000, 128] matrix with a [128, 64] one at (n, o) is the 128-term sum of products. -/
theorem ref_dot_apply (L : FVec Ideal S50000x128 .f32) (R : FVec Ideal S128x64 .f32) (n : Fin 50000) (o : Fin 64) :
    Host.dotGeneral dot_S50000x128_S128x64_S50000x64_1_0_0_1_n_n none L R (ix2 n o)
      = ∑ k : Fin 128, L (ix2 n k) * R (ix2 k o) := by
  simp only [Host.dotGeneral]
  rw [Ideal.dotGeneral_apply,
    ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  refine congrArg₂ (· * ·) (congrArg L ?_) (congrArg R ?_)
  · exact funext fun a => Fin.ext (by
      match a with
      | ⟨0, _⟩ => exact ref_dot_lhs_0 _ _
      | ⟨1, _⟩ => exact (ref_dot_lhs_1 _ _).trans hk)
  · exact funext fun a => Fin.ext (by
      match a with
      | ⟨0, _⟩ => exact (ref_dot_rhs_0 _ _).trans hk
      | ⟨1, _⟩ => exact ref_dot_rhs_1 _ _)

/-- [x | a] · W_linᵀ + b at (n, o): the 128-term sum is the sum of its two 64-term halves. -/
theorem ref_affine_apply (x a : FVec Ideal S50000x64 .f32) (Wl : FVec Ideal S64x128 .f32) (b : FVec Ideal S64 .f32)
    (n : Fin 50000) (o : Fin 64) :
    Val.affine x a Wl b (ix2 n o)
      = ((∑ k : Fin 64, x (ix2 n k) * Wl (ix2 o (⟨k.val, by have := k.isLt; omega⟩ : Fin 128)))
          + (∑ k : Fin 64, a (ix2 n k) * Wl (ix2 o (⟨64 + k.val, by have := k.isLt; omega⟩ : Fin 128))))
        + b (ix1 o) := by
  unfold Val.affine
  rw [addf_apply, ref_dot_apply, spread_row_apply, row_apply]
  refine congrArg (· + b (ix1 o)) ?_
  show ∑ k : Fin (64 + 64), _ = _
  rw [Fin.sum_univ_add]
  refine congrArg₂ (· + ·) (Finset.sum_congr rfl fun k _ => ?_) (Finset.sum_congr rfl fun k _ => ?_)
  · refine congrArg₂ (· * ·) ?_ ?_
    · exact concat_axis1_left x a concatenates_S50000x64_S50000x64_S50000x128_d1 n k (by have := k.isLt; omega)
    · exact transpose_ix2_apply Wl transposes_S64x128_S128x64_1_0 (⟨k.val, by have := k.isLt; omega⟩ : Fin 128) o
  · refine congrArg₂ (· * ·) ?_ ?_
    · exact concat_axis1_right x a concatenates_S50000x64_S50000x64_S50000x128_d1 n k (by have := k.isLt; omega)
    · exact transpose_ix2_apply Wl transposes_S64x128_S128x64_1_0 (⟨64 + k.val, by have := k.isLt; omega⟩ : Fin 128) o

/-! ## The activation -/

theorem ref_leaky_apply (z : FVec Ideal S50000x64 .f32) (n : Fin 50000) (o : Fin 64) :
    Val.leaky z (ix2 n o) = Cert.Spec.lrelu (z (ix2 n o)) := by
  unfold Val.leaky Cert.Spec.lrelu
  rw [select_apply, cmpf_apply, mulf_apply, ref_zeros_apply, splat_apply]
  rfl

/-! ## The term -/

theorem rterm_apply (x : FVec Ideal S50000x64 .f32) (src dst rel : IVec S800000 32)
    (Wr : FVec Ideal S8x128x64 .f32) (Wl : FVec Ideal S64x128 .f32) (b : FVec Ideal S64 .f32) (n : Fin 50000) (o : Fin 64) :
    Cert.ReferenceIdeal.Val.rterm x src dst rel Wr Wl b (ix2 n o)
      = Cert.Spec.outAt x src dst rel (Cert.ReferenceIdeal.Val.relSum Wr) Wl b n o := by
  unfold Val.rterm
  rw [ref_leaky_apply, ref_affine_apply]
  unfold Cert.Spec.outAt
  refine congrArg Cert.Spec.lrelu (congrArg (· + b (ix1 o)) (congrArg (_ + ·) (Finset.sum_congr rfl fun k _ => ?_)))
  rw [ref_agg_spec]

end Cert.Bridge

end
-- ==== Proof.Bridge.lean ====
/-
  The two terms are one function of the arguments: entry by entry both are the specification.
-/
import proofs.«411877_j2413771620668_3_alg».proof.Proof.BridgeK
import proofs.«411877_j2413771620668_3_alg».proof.Proof.BridgeR

noncomputable section

namespace Cert.Bridge

open Idealize.ShloMosaic Idealize.ShloMosaic.ValueIdx

/-- Σ_j W_r[·,·,j] is the same term in both programs. -/
theorem relSum_eq (Wr : FVec Ideal Cert.KernelIdeal.S8x128x64 .f32) :
    Cert.KernelIdeal.Val.relSum Wr = Cert.ReferenceIdeal.Val.relSum Wr := rfl

theorem kterm_eq_rterm (x : FVec Ideal Cert.KernelIdeal.S50000x64 .f32) (src dst rel : IVec Cert.KernelIdeal.S800000 32)
    (Wr : FVec Ideal Cert.KernelIdeal.S8x128x64 .f32) (Wl : FVec Ideal Cert.KernelIdeal.S64x128 .f32) (b : FVec Ideal Cert.KernelIdeal.S64 .f32) :
    Cert.KernelIdeal.Val.kterm x src dst rel Wr Wl b = Cert.ReferenceIdeal.Val.rterm x src dst rel Wr Wl b := by
  funext j
  rw [eq_ix2 j]
  exact (kterm_apply x src dst rel Wr Wl b (j 0) (j 1)).trans
    ((congrArg (fun w => Cert.Spec.outAt x src dst rel w Wl b (j 0) (j 1)) (relSum_eq Wr)).trans
      (rterm_apply x src dst rel Wr Wl b (j 0) (j 1)).symm)

end Cert.Bridge

end
-- ==== Proof.lean ====
/-
  A relational graph-convolution layer: per edge a gate, the logistic of
  x[dst]·w_dst[rel] + x[src]·w_src[rel] with w = Σ_j W_r[·,·,j]; the message x[src] scaled by the gate; messages averaged
  per destination node; then leaky_relu ([x | agg] · W_linᵀ + b).

  The kernel's program computes the two dot products on the node side (x · wᵀ once per node and relation, then one
  scalar taken per edge), pads the 800000 edges to 802816 = 49 · 16384 with ids that land nowhere, forms the messages
  in a first grid of 49 blocks, scatters them, and applies the linear layer and the leaky_relu in a second grid of 10
  blocks of 5000 nodes, the weight split in its two 64-column halves. Over the extended reals the two programs are one
  function of their arguments: the contraction over k commutes with taking row dst e and row rel e; a padded edge adds
  nothing to any node's sum or count; the 128-term sum over [x | agg] is the sum of its two 64-term halves; and the
  logistic is 1 / (1 + exp (−z)) on both sides. Only commutativity and associativity of + and · are used, so the
  finiteness of the inputs is never opened.

  The frames of the two kernel programs are the generated ones; the reference's is its run with the result dropped.
-/
import proofs.«411877_j2413771620668_3_alg».proof.Defs
import proofs.«411877_j2413771620668_3_alg».proof.Proof.Gen.Kernel
import proofs.«411877_j2413771620668_3_alg».proof.Proof.Gen.Kernel.Skeleton
import proofs.«411877_j2413771620668_3_alg».proof.Proof.Gen.Kernel.Launch
import proofs.«411877_j2413771620668_3_alg».proof.Proof.Gen.Kernel.Points
import proofs.«411877_j2413771620668_3_alg».proof.Proof.Gen.Kernel.Frame
import proofs.«411877_j2413771620668_3_alg».proof.Proof.Gen.KernelIdeal
import proofs.«411877_j2413771620668_3_alg».proof.Proof.Gen.KernelIdeal.Skeleton
import proofs.«411877_j2413771620668_3_alg».proof.Proof.Gen.KernelIdeal.Launch
import proofs.«411877_j2413771620668_3_alg».proof.Proof.Gen.KernelIdeal.Points
import proofs.«411877_j2413771620668_3_alg».proof.Proof.Gen.KernelIdeal.Frame
import proofs.«411877_j2413771620668_3_alg».proof.Proof.Gen.ReferenceIdeal
import proofs.«411877_j2413771620668_3_alg».proof.Proof.Gen.Pre_finite_inputs
import proofs.«411877_j2413771620668_3_alg».proof.Proof.KernelRun
import proofs.«411877_j2413771620668_3_alg».proof.Proof.KernelHost
import proofs.«411877_j2413771620668_3_alg».proof.Proof.RefRun
import proofs.«411877_j2413771620668_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Val.run m ρ)

/-- Both runs end with the result array at one term of the arguments: the kernel's term, which the reference's equals. -/
theorem algebraic : Cert.algebraic_KernelIdeal_ReferenceIdeal := by
  intro m ρ m' ρ' _ hagree
  refine ⟨fun c => Cert.KernelIdeal.Val.kterm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.result m ρ c), (h c).2⟩)
      (Cert.KernelIdeal.Val.run_named (F := Ideal) m ρ)
  · refine (θ_run Cert.ReferenceIdeal.defs _ _).mono (fun r h c => ⟨(h c).1.trans ?_, (h c).2⟩)
      (Cert.ReferenceIdeal.Val.run m' ρ')
    rw [(hagree c).1, (hagree c).2.1, (hagree c).2.2.1, (hagree c).2.2.2.1, (hagree c).2.2.2.2.1, (hagree c).2.2.2.2.2.1, (hagree c).2.2.2.2.2.2]
    exact (Cert.Bridge.kterm_eq_rterm _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
